-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S16x64 .f32) (main_arg8 : FVec F S16x64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16x64 .f32 := Host.absf main_arg8
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S16x64 .f32) (main_arg8 : FVec F S16x64 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S4x512x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S16x64 .f32) (main_arg8 : FVec F S16x64 .f32) (main_arg9 : IVec S131072 32) (main_arg10 : IVec S131072 32) (main_arg11 : IVec S131072 32) (main_arg12 : IVec S131072 32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S2048x768 : Shape := ⟨2, ![2048, 768]⟩
abbrev S768x2304 : Shape := ⟨2, ![768, 2304]⟩
abbrev S2304 : Shape := ⟨1, ![2304]⟩
abbrev S1x2304 : Shape := ⟨2, ![1, 2304]⟩
abbrev S2048x2304 : Shape := ⟨2, ![2048, 2304]⟩
abbrev S256x768 : Shape := ⟨2, ![256, 768]⟩
abbrev S256x2304 : Shape := ⟨2, ![256, 2304]⟩
abbrev S2048x12x64 : Shape := ⟨3, ![2048, 12, 64]⟩
abbrev S_ : Shape := ⟨0, ![]⟩
abbrev S131072x1 : Shape := ⟨2, ![131072, 1]⟩
abbrev S131072x12x64 : Shape := ⟨3, ![131072, 12, 64]⟩
abbrev S131072x64 : Shape := ⟨2, ![131072, 64]⟩
abbrev S131072x1x64 : Shape := ⟨3, ![131072, 1, 64]⟩
abbrev S131072x12 : Shape := ⟨2, ![131072, 12]⟩
abbrev S1024x12x64 : Shape := ⟨3, ![1024, 12, 64]⟩
abbrev S1024x1x64 : Shape := ⟨3, ![1024, 1, 64]⟩
abbrev S1024x12 : Shape := ⟨2, ![1024, 12]⟩
abbrev S2048x12 : Shape := ⟨2, ![2048, 12]⟩
abbrev S1024x12x1 : Shape := ⟨3, ![1024, 12, 1]⟩

abbrev nBuf : Space → Nat
  | .hbm => 89
  | .vmem => 24
  | .smem => 0
  | _ => 0

abbrev bufTy : (tb : Table) → Fin (tcTables nBuf tb) → BufTy
  | .hbm, ⟨0, _⟩ => ⟨S4x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x64, .f32⟩
  | .hbm, ⟨8, _⟩ => ⟨S16x64, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S2048x768, .f32⟩
  | .hbm, ⟨14, _⟩ => ⟨S768x768, .f32⟩
  | .hbm, ⟨15, _⟩ => ⟨S768x768, .f32⟩
  | .hbm, ⟨16, _⟩ => ⟨S768x768, .f32⟩
  | .hbm, ⟨17, _⟩ => ⟨S768x2304, .f32⟩
  | .hbm, ⟨18, _⟩ => ⟨S2304, .f32⟩
  | .hbm, ⟨19, _⟩ => ⟨S1x2304, .f32⟩
  | .hbm, ⟨20, _⟩ => ⟨S2048x2304, .f32⟩
  | .hbm, ⟨21, _⟩ => ⟨S2048x768, .f32⟩
  | .hbm, ⟨22, _⟩ => ⟨S2048x12x64, .f32⟩
  | .hbm, ⟨23, _⟩ => ⟨S2048x768, .f32⟩
  | .hbm, ⟨24, _⟩ => ⟨S2048x12x64, .f32⟩
  | .hbm, ⟨25, _⟩ => ⟨S2048x768, .f32⟩
  | .hbm, ⟨26, _⟩ => ⟨S2048x12x64, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072x12x64, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x12x64, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072x64, .f32⟩
  | .hbm, ⟨54, _⟩ => ⟨S131072x1x64, .f32⟩
  | .hbm, ⟨55, _⟩ => ⟨S131072x12, .f32⟩
  | .hbm, ⟨56, _⟩ => ⟨S_, .f32⟩
  | .hbm, ⟨57, _⟩ => ⟨S2048x12, .f32⟩
  | .hbm, ⟨58, _⟩ => ⟨S131072x1, .i32⟩
  | .hbm, ⟨59, _⟩ => ⟨S2048x12, .f32⟩
  | .hbm, ⟨60, _⟩ => ⟨S_, .i32⟩
  | .hbm, ⟨61, _⟩ => ⟨S131072, .i32⟩
  | .hbm, ⟨62, _⟩ => ⟨S131072, .i1⟩
  | .hbm, ⟨63, _⟩ => ⟨S_, .i32⟩
  | .hbm, ⟨64, _⟩ => ⟨S131072, .i32⟩
  | .hbm, ⟨65, _⟩ => ⟨S131072, .i32⟩
  | .hbm, ⟨66, _⟩ => ⟨S131072, .i32⟩
  | .hbm, ⟨67, _⟩ => ⟨S131072x1, .i32⟩
  | .hbm, ⟨68, _⟩ => ⟨S131072x12, .f32⟩
  | .hbm, ⟨69, _⟩ => ⟨S_, .i32⟩
  | .hbm, ⟨70, _⟩ => ⟨S131072, .i32⟩
  | .hbm, ⟨71, _⟩ => ⟨S131072, .i1⟩
  | .hbm, ⟨72, _⟩ => ⟨S_, .i32⟩
  | .hbm, ⟨73, _⟩ => ⟨S131072, .i32⟩
  | .hbm, ⟨74, _⟩ => ⟨S131072, .i32⟩
  | .hbm, ⟨75, _⟩ => ⟨S131072, .i32⟩
  | .hbm, ⟨76, _⟩ => ⟨S131072x1, .i32⟩
  | .hbm, ⟨77, _⟩ => ⟨S131072x12x64, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x64, .f32⟩
  | .hbm, ⟨87, _⟩ => ⟨S131072x1x64, .f32⟩
  | .hbm, ⟨88, _⟩ => ⟨S131072x12x64, .f32⟩
  | .local _ .vmem, ⟨0, _⟩ => ⟨S256x768, .f32⟩
  | .local _ .vmem, ⟨1, _⟩ => ⟨S256x768, .f32⟩
  | .local _ .vmem, ⟨2, _⟩ => ⟨S768x2304, .f32⟩
  | .local _ .vmem, ⟨3, _⟩ => ⟨S1x2304, .f32⟩
  | .local _ .vmem, ⟨4, _⟩ => ⟨S256x2304, .f32⟩
  | .local _ .vmem, ⟨5, _⟩ => ⟨S256x2304, .f32⟩
  | .local _ .vmem, ⟨6, _⟩ => ⟨S1024x12x64, .f32⟩
  | .local _ .vmem, ⟨7, _⟩ => ⟨S1024x12x64, .f32⟩
  | .local _ .vmem, ⟨8, _⟩ => ⟨S1024x12x64, .f32⟩
  | .local _ .vmem, ⟨9, _⟩ => ⟨S1024x12x64, .f32⟩
  | .local _ .vmem, ⟨10, _⟩ => ⟨S1024x1x64, .f32⟩
  | .local _ .vmem, ⟨11, _⟩ => ⟨S1024x1x64, .f32⟩
  | .local _ .vmem, ⟨12, _⟩ => ⟨S1024x12, .f32⟩
  | .local _ .vmem, ⟨13, _⟩ => ⟨S1024x12, .f32⟩
  | .local _ .vmem, ⟨14, _⟩ => ⟨S1024x12x64, .f32⟩
  | .local _ .vmem, ⟨15, _⟩ => ⟨S1024x12x64, .f32⟩
  | .local _ .vmem, ⟨16, _⟩ => ⟨S1024x1x64, .f32⟩
  | .local _ .vmem, ⟨17, _⟩ => ⟨S1024x1x64, .f32⟩
  | .local _ .vmem, ⟨18, _⟩ => ⟨S1024x12, .f32⟩
  | .local _ .vmem, ⟨19, _⟩ => ⟨S1024x12, .f32⟩
  | .local _ .vmem, ⟨20, _⟩ => ⟨S1024x12, .f32⟩
  | .local _ .vmem, ⟨21, _⟩ => ⟨S1024x12, .f32⟩
  | .local _ .vmem, ⟨22, _⟩ => ⟨S1024x12x64, .f32⟩
  | .local _ .vmem, ⟨23, _⟩ => ⟨S1024x12x64, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x12x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x12x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x12x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x12 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x12 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x12x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S4x512x768_S2048x768 : S4x512x768.ShapeCasts S2048x768
  transposes_S768x768_S768x768_1_0 : S768x768.Transposes [1, 0] S768x768
  concatenates_S768x768_S768x768_S768x768_S768x2304_d1 : Shape.Concatenates [S768x768, S768x768, S768x768] S768x2304 1
  concatenates_S768_S768_S768_S2304_d0 : Shape.Concatenates [S768, S768, S768] S2304 0
  shapeCasts_S2304_S1x2304 : S2304.ShapeCasts S1x2304
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  inb_S256x2304_S256x2304_0_0 : ∀ a, (![0, 0] : Fin 2 → Nat) a + S256x2304.size a ≤ S256x2304.size a
  h_S256x2304 : 0 < S256x2304.numel
  slices_S2048x2304_S2048x768_0_0 : S2048x2304.Slices ![0, 0] S2048x768
  shapeCasts_S2048x768_S2048x12x64 : S2048x768.ShapeCasts S2048x12x64
  slices_S2048x2304_S2048x768_0_768 : S2048x2304.Slices ![0, 768] S2048x768
  slices_S2048x2304_S2048x768_0_1536 : S2048x2304.Slices ![0, 1536] S2048x768
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x64_S131072x1x64 : S131072x64.ShapeCasts S131072x1x64
  inb_S1024x12x64_S1024x12x64_0_0_0 : ∀ a, (![0, 0, 0] : Fin 3 → Nat) a + S1024x12x64.size a ≤ S1024x12x64.size a
  h_S1024x12x64 : 0 < S1024x12x64.numel
  shapeCasts_S1024x12x64_S1024x12x64 : S1024x12x64.ShapeCasts S1024x12x64
  inb_S1024x1x64_S1024x1x64_0_0_0 : ∀ a, (![0, 0, 0] : Fin 3 → Nat) a + S1024x1x64.size a ≤ S1024x1x64.size a
  h_S1024x1x64 : 0 < S1024x1x64.numel
  shapeCasts_S1024x1x64_S1024x1x64 : S1024x1x64.ShapeCasts S1024x1x64
  broadcasts_S1024x1x64_S1024x12x64 : S1024x1x64.Broadcasts S1024x12x64
  reduces_S1024x12x64_S1024x12 : S1024x12x64.Reduces [2] S1024x12
  inb_S1024x12_S1024x12_0_0 : ∀ a, (![0, 0] : Fin 2 → Nat) a + S1024x12.size a ≤ S1024x12.size a
  h_S1024x12 : 0 < S1024x12.numel
  bcast_S_S2048x12 : S_.BroadcastsInDim S2048x12 (![] : Fin 0 → Fin S2048x12.rank)
  shapeCasts_S1024x12_S1024x12 : S1024x12.ShapeCasts S1024x12
  shapeCasts_S1024x12_S1024x12x1 : S1024x12.ShapeCasts S1024x12x1
  broadcasts_S1024x12x1_S1024x12x64 : S1024x12x1.Broadcasts S1024x12x64
  dot_S256x768_S768x2304_S256x2304_1_0_0_1_n_n_wf : DotDims.WF S256x768 S768x2304 S256x2304 [1] [0] [0] [1] [] []
  gather_S2048x12x64_S131072x1_S131072x12x64_12_0_n_n_0_1_11264_wf : GatherDims.WF S2048x12x64 S131072x1 S131072x12x64 [1, 2] [0] [] [0] [] 1 ![1, 12, 64]
  gather_S16x64_S131072x1_S131072x64_1_0_n_n_0_1_164_wf : GatherDims.WF S16x64 S131072x1 S131072x64 [1] [0] [] [0] [] 1 ![1, 64]
  scatter_S2048x12_S131072x1_S131072x12_1_0_0_1_wf : ScatterDims.WF S2048x12 S131072x1 S131072x12 [1] [0] [0] 1
  gather_S2048x12_S131072x1_S131072x12_1_0_n_n_0_1_112_wf : GatherDims.WF S2048x12 S131072x1 S131072x12 [1] [0] [] [0] [] 1 ![1, 12]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S2048x768.size a
  hwx0_0 : ∀ i : grid0.Coords, EltTy.bits .f32 = 32 ∨ (Rect.block (s := S2048x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S2048x2304.size a
  hwx0_3 : ∀ i : grid0.Coords, EltTy.bits .f32 = 32 ∨ (Rect.block (s := S2048x2304) S256x2304.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x12x64.size a ≤ S131072x12x64.size a
  hwx1_0 : ∀ i : grid1.Coords, EltTy.bits .f32 = 32 ∨ (Rect.block (s := S131072x12x64) S1024x12x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x12x64.size a ≤ S131072x12x64.size a
  hwx1_1 : ∀ i : grid1.Coords, EltTy.bits .f32 = 32 ∨ (Rect.block (s := S131072x12x64) S1024x12x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1x64.size a ≤ S131072x1x64.size a
  hwx1_2 : ∀ i : grid1.Coords, EltTy.bits .f32 = 32 ∨ (Rect.block (s := S131072x1x64) S1024x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x12.size a ≤ S131072x12.size a
  hwx1_3 : ∀ i : grid1.Coords, EltTy.bits .f32 = 32 ∨ (Rect.block (s := S131072x12) S1024x12.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x12x64.size a ≤ S131072x12x64.size a
  hwx2_0 : ∀ i : grid2.Coords, EltTy.bits .f32 = 32 ∨ (Rect.block (s := S131072x12x64) S1024x12x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1x64.size a ≤ S131072x1x64.size a
  hwx2_1 : ∀ i : grid2.Coords, EltTy.bits .f32 = 32 ∨ (Rect.block (s := S131072x1x64) S1024x1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x12.size a ≤ S131072x12.size a
  hwx2_2 : ∀ i : grid2.Coords, EltTy.bits .f32 = 32 ∨ (Rect.block (s := S131072x12) S1024x12.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x12.size a ≤ S131072x12.size a
  hwx2_3 : ∀ i : grid2.Coords, EltTy.bits .f32 = 32 ∨ (Rect.block (s := S131072x12) S1024x12.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x12x64.size a ≤ S131072x12x64.size a
  hwx2_4 : ∀ i : grid2.Coords, EltTy.bits .f32 = 32 ∨ (Rect.block (s := S131072x12x64) S1024x12x64.size (cc2_transform_4 i) (hinb2_4 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def gather_S2048x12x64_S131072x1_S131072x12x64_12_0_n_n_0_1_11264 : GatherDims S2048x12x64 S131072x1 S131072x12x64 where
  offsetDims := [1, 2]
  collapsedSliceDims := [0]
  operandBatchingDims := []
  startIndicesBatchingDims := []
  startIndexMap := [0]
  indexVectorDim := 1
  sliceSizes := ![1, 12, 64]
  wf := gather_S2048x12x64_S131072x1_S131072x12x64_12_0_n_n_0_1_11264_wf
def gather_S16x64_S131072x1_S131072x64_1_0_n_n_0_1_164 : GatherDims S16x64 S131072x1 S131072x64 where
  offsetDims := [1]
  collapsedSliceDims := [0]
  operandBatchingDims := []
  startIndicesBatchingDims := []
  startIndexMap := [0]
  indexVectorDim := 1
  sliceSizes := ![1, 64]
  wf := gather_S16x64_S131072x1_S131072x64_1_0_n_n_0_1_164_wf
def scatter_S2048x12_S131072x1_S131072x12_1_0_0_1 : ScatterDims S2048x12 S131072x1 S131072x12 where
  updateWindowDims := [1]
  insertedWindowDims := [0]
  scatterDimsToOperandDims := [0]
  indexVectorDim := 1
  wf := scatter_S2048x12_S131072x1_S131072x12_1_0_0_1_wf
def gather_S2048x12_S131072x1_S131072x12_1_0_n_n_0_1_112 : GatherDims S2048x12 S131072x1 S131072x12 where
  offsetDims := [1]
  collapsedSliceDims := [0]
  operandBatchingDims := []
  startIndicesBatchingDims := []
  startIndexMap := [0]
  indexVectorDim := 1
  sliceSizes := ![1, 12]
  wf := gather_S2048x12_S131072x1_S131072x12_1_0_n_n_0_1_112_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1024x12x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1024x12x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x12.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S1024x12x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1024x1x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1024x12.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1024x12.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1024x12x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x512x768 : Shape := ⟨3, ![4, 512, 768]⟩
abbrev S768x768 : Shape := ⟨2, ![768, 768]⟩
abbrev S768 : Shape := ⟨1, ![768]⟩
abbrev S16x64 : Shape := ⟨2, ![16, 64]⟩
abbrev S131072 : Shape := ⟨1, ![131072]⟩
abbrev S2048x768 : Shape := ⟨2, ![2048, 768]⟩
abbrev S1x768 : Shape := ⟨2, ![1, 768]⟩
abbrev S2048x12x64 : Shape := ⟨3, ![2048, 12, 64]⟩
abbrev S_ : Shape := ⟨0, ![]⟩
abbrev S131072x1 : Shape := ⟨2, ![131072, 1]⟩
abbrev S131072x12x64 : Shape := ⟨3, ![131072, 12, 64]⟩
abbrev S131072x64 : Shape := ⟨2, ![131072, 64]⟩
abbrev S131072x1x64 : Shape := ⟨3, ![131072, 1, 64]⟩
abbrev S131072x12 : Shape := ⟨2, ![131072, 12]⟩
abbrev S2048x12 : Shape := ⟨2, ![2048, 12]⟩
abbrev S131072x12x1 : Shape := ⟨3, ![131072, 12, 1]⟩

abbrev nBuf : Space → Nat
  | .hbm => 108
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x64, .f32⟩
  | .hbm, ⟨8, _⟩ => ⟨S16x64, .f32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S2048x768, .f32⟩
  | .hbm, ⟨14, _⟩ => ⟨S768x768, .f32⟩
  | .hbm, ⟨15, _⟩ => ⟨S2048x768, .f32⟩
  | .hbm, ⟨16, _⟩ => ⟨S1x768, .f32⟩
  | .hbm, ⟨17, _⟩ => ⟨S2048x768, .f32⟩
  | .hbm, ⟨18, _⟩ => ⟨S2048x768, .f32⟩
  | .hbm, ⟨19, _⟩ => ⟨S2048x12x64, .f32⟩
  | .hbm, ⟨20, _⟩ => ⟨S768x768, .f32⟩
  | .hbm, ⟨21, _⟩ => ⟨S2048x768, .f32⟩
  | .hbm, ⟨22, _⟩ => ⟨S1x768, .f32⟩
  | .hbm, ⟨23, _⟩ => ⟨S2048x768, .f32⟩
  | .hbm, ⟨24, _⟩ => ⟨S2048x768, .f32⟩
  | .hbm, ⟨25, _⟩ => ⟨S2048x12x64, .f32⟩
  | .hbm, ⟨26, _⟩ => ⟨S768x768, .f32⟩
  | .hbm, ⟨27, _⟩ => ⟨S2048x768, .f32⟩
  | .hbm, ⟨28, _⟩ => ⟨S1x768, .f32⟩
  | .hbm, ⟨29, _⟩ => ⟨S2048x768, .f32⟩
  | .hbm, ⟨30, _⟩ => ⟨S2048x768, .f32⟩
  | .hbm, ⟨31, _⟩ => ⟨S2048x12x64, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x12x64, .f32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S131072x64, .f32⟩
  | .hbm, ⟨50, _⟩ => ⟨S131072x1x64, .f32⟩
  | .hbm, ⟨51, _⟩ => ⟨S131072x12x64, .f32⟩
  | .hbm, ⟨52, _⟩ => ⟨S131072x12x64, .f32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S131072x1, .i32⟩
  | .hbm, ⟨61, _⟩ => ⟨S131072x12x64, .f32⟩
  | .hbm, ⟨62, _⟩ => ⟨S131072x12x64, .f32⟩
  | .hbm, ⟨63, _⟩ => ⟨S_, .f32⟩
  | .hbm, ⟨64, _⟩ => ⟨S131072x12, .f32⟩
  | .hbm, ⟨65, _⟩ => ⟨S_, .f32⟩
  | .hbm, ⟨66, _⟩ => ⟨S_, .f32⟩
  | .hbm, ⟨67, _⟩ => ⟨S131072x12, .f32⟩
  | .hbm, ⟨68, _⟩ => ⟨S131072x12, .f32⟩
  | .hbm, ⟨69, _⟩ => ⟨S131072x12, .f32⟩
  | .hbm, ⟨70, _⟩ => ⟨S_, .f32⟩
  | .hbm, ⟨71, _⟩ => ⟨S2048x12, .f32⟩
  | .hbm, ⟨72, _⟩ => ⟨S131072x1, .i32⟩
  | .hbm, ⟨73, _⟩ => ⟨S2048x12, .f32⟩
  | .hbm, ⟨74, _⟩ => ⟨S_, .i32⟩
  | .hbm, ⟨75, _⟩ => ⟨S131072, .i32⟩
  | .hbm, ⟨76, _⟩ => ⟨S131072, .i1⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S131072x1, .i32⟩
  | .hbm, ⟨82, _⟩ => ⟨S131072x12, .f32⟩
  | .hbm, ⟨83, _⟩ => ⟨S131072x12, .f32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S131072x12x64, .f32⟩
  | .hbm, ⟨93, _⟩ => ⟨S_, .i32⟩
  | .hbm, ⟨94, _⟩ => ⟨S131072, .i32⟩
  | .hbm, ⟨95, _⟩ => ⟨S131072, .i1⟩
  | .hbm, ⟨96, _⟩ => ⟨S_, .i32⟩
  | .hbm, ⟨97, _⟩ => ⟨S131072, .i32⟩
  | .hbm, ⟨98, _⟩ => ⟨S131072, .i32⟩
  | .hbm, ⟨99, _⟩ => ⟨S131072, .i32⟩
  | .hbm, ⟨100, _⟩ => ⟨S131072x1, .i32⟩
  | .hbm, ⟨101, _⟩ => ⟨S131072x64, .f32⟩
  | .hbm, ⟨102, _⟩ => ⟨S131072x1x64, .f32⟩
  | .hbm, ⟨103, _⟩ => ⟨S131072x12x64, .f32⟩
  | .hbm, ⟨104, _⟩ => ⟨S131072x12x64, .f32⟩
  | .hbm, ⟨105, _⟩ => ⟨S131072x12x1, .f32⟩
  | .hbm, ⟨106, _⟩ => ⟨S131072x12x64, .f32⟩
  | .hbm, ⟨107, _⟩ => ⟨S131072x12x64, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_9 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  shapeCasts_S4x512x768_S2048x768 : S4x512x768.ShapeCasts S2048x768
  transposes_S768x768_S768x768_1_0 : S768x768.Transposes [1, 0] S768x768
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  shapeCasts_S2048x768_S2048x12x64 : S2048x768.ShapeCasts S2048x12x64
  bcast_S_S131072 : S_.BroadcastsInDim S131072 (![] : Fin 0 → Fin S131072.rank)
  bcast_S131072_S131072x1_0 : S131072.BroadcastsInDim S131072x1 (![0] : Fin 1 → Fin S131072x1.rank)
  bcast_S131072x64_S131072x1x64_0_2 : S131072x64.BroadcastsInDim S131072x1x64 (![0, 2] : Fin 2 → Fin S131072x1x64.rank)
  bcast_S131072x1x64_S131072x12x64_0_1_2 : S131072x1x64.BroadcastsInDim S131072x12x64 (![0, 1, 2] : Fin 3 → Fin S131072x12x64.rank)
  reducesTo_S131072x12x64_S131072x12_d2 : S131072x12x64.ReducesTo [2] S131072x12
  h_S_ : 0 < S_.numel
  bcast_S_S131072x12 : S_.BroadcastsInDim S131072x12 (![] : Fin 0 → Fin S131072x12.rank)
  bcast_S_S2048x12 : S_.BroadcastsInDim S2048x12 (![] : Fin 0 → Fin S2048x12.rank)
  bcast_S131072x12_S131072x12x1_0_1 : S131072x12.BroadcastsInDim S131072x12x1 (![0, 1] : Fin 2 → Fin S131072x12x1.rank)
  bcast_S131072x12x1_S131072x12x64_0_1_2 : S131072x12x1.BroadcastsInDim S131072x12x64 (![0, 1, 2] : Fin 3 → Fin S131072x12x64.rank)
  dot_S2048x768_S768x768_S2048x768_1_0_0_1_n_n_wf : DotDims.WF S2048x768 S768x768 S2048x768 [1] [0] [0] [1] [] []
  gather_S2048x12x64_S131072x1_S131072x12x64_12_0_n_n_0_1_11264_wf : GatherDims.WF S2048x12x64 S131072x1 S131072x12x64 [1, 2] [0] [] [0] [] 1 ![1, 12, 64]
  gather_S16x64_S131072x1_S131072x64_1_0_n_n_0_1_164_wf : GatherDims.WF S16x64 S131072x1 S131072x64 [1] [0] [] [0] [] 1 ![1, 64]
  scatter_S2048x12_S131072x1_S131072x12_1_0_0_1_wf : ScatterDims.WF S2048x12 S131072x1 S131072x12 [1] [0] [0] 1
  gather_S2048x12_S131072x1_S131072x12_1_0_n_n_0_1_112_wf : GatherDims.WF S2048x12 S131072x1 S131072x12 [1] [0] [] [0] [] 1 ![1, 12]

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def gather_S2048x12x64_S131072x1_S131072x12x64_12_0_n_n_0_1_11264 : GatherDims S2048x12x64 S131072x1 S131072x12x64 where
  offsetDims := [1, 2]
  collapsedSliceDims := [0]
  operandBatchingDims := []
  startIndicesBatchingDims := []
  startIndexMap := [0]
  indexVectorDim := 1
  sliceSizes := ![1, 12, 64]
  wf := gather_S2048x12x64_S131072x1_S131072x12x64_12_0_n_n_0_1_11264_wf
def gather_S16x64_S131072x1_S131072x64_1_0_n_n_0_1_164 : GatherDims S16x64 S131072x1 S131072x64 where
  offsetDims := [1]
  collapsedSliceDims := [0]
  operandBatchingDims := []
  startIndicesBatchingDims := []
  startIndexMap := [0]
  indexVectorDim := 1
  sliceSizes := ![1, 64]
  wf := gather_S16x64_S131072x1_S131072x64_1_0_n_n_0_1_164_wf
def scatter_S2048x12_S131072x1_S131072x12_1_0_0_1 : ScatterDims S2048x12 S131072x1 S131072x12 where
  updateWindowDims := [1]
  insertedWindowDims := [0]
  scatterDimsToOperandDims := [0]
  indexVectorDim := 1
  wf := scatter_S2048x12_S131072x1_S131072x12_1_0_0_1_wf
def gather_S2048x12_S131072x1_S131072x12_1_0_n_n_0_1_112 : GatherDims S2048x12 S131072x1 S131072x12 where
  offsetDims := [1]
  collapsedSliceDims := [0]
  operandBatchingDims := []
  startIndicesBatchingDims := []
  startIndexMap := [0]
  indexVectorDim := 1
  sliceSizes := ![1, 12]
  wf := gather_S2048x12_S131072x1_S131072x12_1_0_n_n_0_1_112_wf

class Facts : Prop extends Facts₀ where

variable [Facts]
-- ==== Proof.KI.Body0.lean ====
/-
  Region 0 of the fused projection program, the dense projection kernel, at any float instance.
  The kernel's one grid axis walks the 2048 rows of the flattened hidden states in eight blocks of 256 rows; at a point
  the body reads the row block, the whole 768 x 2304 weight matrix and the 1 x 2304 bias row, and stores
  (row block) . (weights) + (bias row, repeated down the rows) over the whole 256 x 2304 output block.
  Stated here, over the contents `V` the region finds in the buffers: what each window's staging buffer holds at a
  point, the body's triple, the proof data of the pipeline and the body obligation the launch theorem asks for.
-/
import proofs.«108313_j29489245454921_1_alg».proof.Proof.Gen.KernelIdeal.Launch
import proofs.«108313_j29489245454921_1_alg».proof.Proof.Gen.KernelIdeal.Skeleton
import proofs.«108313_j29489245454921_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds row block `t` at point `t` (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: it is fetched once, at the first point,
    its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the whole row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four accesses, each the whole of its staging buffer. -/
abbrev r0_0 : Rect S256x768 := Rect.unit (s := S256x768) ![0, 0] S256x768.size inb_S256x768_S256x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S256x2304 := Rect.unit (s := S256x2304) ![0, 0] S256x2304.size inb_S256x2304_S256x2304_0_0

/-- What the body leaves in the output block's staging buffer: its one store, of the projection of the three loaded
    values. -/
def out0_3 (x0 : Vec F S256x768 .f32) (x1 : Vec F S768x2304 .f32) (x2 : Vec F S1x2304 .f32) : Vec F S256x2304 .f32 :=
  View.canon [⟨r0_3, k0_pay1 (View.ld x0 r0_0) (View.ld x1 r0_1) (View.ld x2 r0_2)⟩]

/-- The one store covers the whole buffer. -/
theorem cover0_3 (p0 : Vec F S256x2304 .f32) (y : S256x2304.Idx) :
    ∃ pc ∈ ([⟨r0_3, p0⟩] : List (View.Piece (Elt F) S256x2304 .f32)), y ∈ pc.1.set :=
  View.cover_of_tiled [⟨r0_3, p0⟩] S256x2304.size (by rfl) y

set_option maxHeartbeats 1000000 in
/-- The body on whole staging buffers: from the three inputs at `x0`, `x1`, `x2` and the output at anything it runs to
    the end, leaving the inputs as they were and the output at `out0_3 x0 x1 x2`. -/
theorem sound_kernel0 (c : Dev nD) (E : Set ℕ) (i : grid0.Coords)
    (arg1 : Memref sig .tc .vmem S256x768 .f32) (harg1 : arg1.IsWhole) (arg2 : Memref sig .tc .vmem S768x2304 .f32) (harg2 : arg2.IsWhole)
    (arg3 : Memref sig .tc .vmem S1x2304 .f32) (harg3 : arg3.IsWhole) (arg4 : Memref sig .tc .vmem S256x2304 .f32) (harg4 : arg4.IsWhole)
    (x0 : Vec F S256x768 .f32) (x1 : Vec F S768x2304 .f32) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer still at its block and the output's at the projection of the three blocks; the invariant carries only
    what the kernel never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0] <;> rfl
theorem after0_1 (c : Dev nD) (t : Fin cfg0.N) : (dat0 V c).after 1 t = iblk0 V c 1 t := by dsimp only [dat0] <;> rfl
theorem after0_2 (c : Dev nD) (t : Fin cfg0.N) : (dat0 V c).after 2 t = iblk0 V c 2 t := by dsimp only [dat0] <;> rfl
theorem after0_3 (c : Dev nD) (t : Fin cfg0.N) :
    (dat0 V c).after 3 t = out0_3 (iblk0 V c 0 t) (iblk0 V c 1 t) (iblk0 V c 2 t) := by dsimp only [dat0] <;> rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1, the score kernel, at any float instance. Its one grid axis walks the 131072 edges in 128 blocks of 1024; at a
  point the body reads the edge block of the gathered queries and of the gathered keys (1024 x 12 x 64 each) and of the
  relative-key rows (1024 x 1 x 64), and stores, per edge and head, the exponential of an eighth of the sum over the 64
  features of query times (key plus relative key, the same row for every head), over the whole 1024 x 12 output block.
  Stated over the contents `V` the region finds in the buffers: what each staging buffer holds at a point, the body's
  triple, the pipeline's proof data and the body obligation.
-/
import proofs.«108313_j29489245454921_1_alg».proof.Proof.Gen.KernelIdeal.Launch
import proofs.«108313_j29489245454921_1_alg».proof.Proof.Gen.KernelIdeal.Skeleton
import proofs.«108313_j29489245454921_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds edge block `t` at point `t`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block's staging buffer holds edge block `t` at point `t`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The relative-key block's staging buffer holds edge block `t` at point `t`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses, each the whole of its staging buffer. -/
abbrev r1_qk : Rect S1024x12x64 := Rect.unit (s := S1024x12x64) ![0, 0, 0] S1024x12x64.size inb_S1024x12x64_S1024x12x64_0_0_0
abbrev r1_rel : Rect S1024x1x64 := Rect.unit (s := S1024x1x64) ![0, 0, 0] S1024x1x64.size inb_S1024x1x64_S1024x1x64_0_0_0
abbrev r1_out : Rect S1024x12 := Rect.unit (s := S1024x12) ![0, 0] S1024x12.size inb_S1024x12_S1024x12_0_0

/-- What the body leaves in the score block's staging buffer: its one store, of the scores of the three loaded values. -/
def out1_3 (x0 x1 : Vec F S1024x12x64 .f32) (x2 : Vec F S1024x1x64 .f32) : Vec F S1024x12 .f32 :=
  View.canon [⟨r1_out, k1_pay1 (View.ld x0 r1_qk) (View.ld x1 r1_qk) (View.ld x2 r1_rel)⟩]

/-- The one store covers the whole buffer. -/
theorem cover1_3 (p0 : Vec F S1024x12 .f32) (y : S1024x12.Idx) :
    ∃ pc ∈ ([⟨r1_out, p0⟩] : List (View.Piece (Elt F) S1024x12 .f32)), y ∈ pc.1.set :=
  View.cover_of_tiled [⟨r1_out, p0⟩] S1024x12.size (by rfl) y

set_option maxHeartbeats 1000000 in
/-- The body on whole staging buffers: from the inputs at `x0`, `x1`, `x2` and the output at anything it runs to the end,
    leaving the inputs as they were and the output at `out1_3 x0 x1 x2`. -/
theorem sound_kernel1 (c : Dev nD) (E : Set ℕ) (i : grid1.Coords)
    (arg1 : Memref sig .tc .vmem S1024x12x64 .f32) (harg1 : arg1.IsWhole) (arg2 : Memref sig .tc .vmem S1024x12x64 .f32) (harg2 : arg2.IsWhole)
    (arg3 : Memref sig .tc .vmem S1024x1x64 .f32) (harg3 : arg3.IsWhole) (arg4 : Memref sig .tc .vmem S1024x12 .f32) (harg4 : arg4.IsWhole)
    (x0 x1 : Vec F S1024x12x64 .f32) (x2 : Vec F S1024x1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__score_kernel i arg1 harg1 arg2 harg2 arg3 harg3 arg4 harg4) K := by
  simp only [cc1__score_kernel_eq_skeleton]; unfold cc1__score_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer still at its block and the output's at the scores of the three blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1] <;> rfl
theorem after1_1 (c : Dev nD) (t : Fin cfg1.N) : (dat1 V c).after 1 t = iblk1 V c 1 t := by dsimp only [dat1] <;> rfl
theorem after1_2 (c : Dev nD) (t : Fin cfg1.N) : (dat1 V c).after 2 t = iblk1 V c 2 t := by dsimp only [dat1] <;> rfl
theorem after1_3 (c : Dev nD) (t : Fin cfg1.N) :
    (dat1 V c).after 3 t = out1_3 (iblk1 V c 0 t) (iblk1 V c 1 t) (iblk1 V c 2 t) := by dsimp only [dat1] <;> rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2, the weighting kernel, at any float instance. Its one grid axis walks the 131072 edges in 128 blocks of 1024; at
  a point the body reads the edge block of the gathered values (1024 x 12 x 64), of the relative-value rows
  (1024 x 1 x 64), of the scores and of the gathered denominators (1024 x 12 each), and stores, per edge, head and feature,
  (value plus relative value, the same row for every head) times (score divided by denominator, the same quotient for
  every feature), over the whole 1024 x 12 x 64 output block.
  Stated over the contents `V` the region finds in the buffers: what each staging buffer holds at a point, the body's
  triple, the pipeline's proof data and the body obligation.
-/
import proofs.«108313_j29489245454921_1_alg».proof.Proof.Gen.KernelIdeal.Launch
import proofs.«108313_j29489245454921_1_alg».proof.Proof.Gen.KernelIdeal.Skeleton
import proofs.«108313_j29489245454921_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The value block's staging buffer holds edge block `t` at point `t`. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The relative-value block's staging buffer holds edge block `t` at point `t`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The score block's staging buffer holds edge block `t` at point `t`. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The denominator block's staging buffer holds edge block `t` at point `t`. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses, each the whole of its staging buffer. -/
abbrev r2_val : Rect S1024x12x64 := Rect.unit (s := S1024x12x64) ![0, 0, 0] S1024x12x64.size inb_S1024x12x64_S1024x12x64_0_0_0
abbrev r2_rel : Rect S1024x1x64 := Rect.unit (s := S1024x1x64) ![0, 0, 0] S1024x1x64.size inb_S1024x1x64_S1024x1x64_0_0_0
abbrev r2_sc : Rect S1024x12 := Rect.unit (s := S1024x12) ![0, 0] S1024x12.size inb_S1024x12_S1024x12_0_0

/-- What the body leaves in the output block's staging buffer: its one store, of the weighted values of the four loaded
    values. -/
def out2_4 (x0 : Vec F S1024x12x64 .f32) (x1 : Vec F S1024x1x64 .f32) (x2 x3 : Vec F S1024x12 .f32) : Vec F S1024x12x64 .f32 :=
  View.canon [⟨r2_val, k2_pay1 (View.ld x0 r2_val) (View.ld x1 r2_rel) (View.ld x2 r2_sc) (View.ld x3 r2_sc)⟩]

/-- The one store covers the whole buffer. -/
theorem cover2_4 (p0 : Vec F S1024x12x64 .f32) (y : S1024x12x64.Idx) :
    ∃ pc ∈ ([⟨r2_val, p0⟩] : List (View.Piece (Elt F) S1024x12x64 .f32)), y ∈ pc.1.set :=
  View.cover_of_tiled [⟨r2_val, p0⟩] S1024x12x64.size (by rfl) y

set_option maxHeartbeats 1000000 in
/-- The body on whole staging buffers: from the inputs at `x0` … `x3` and the output at anything it runs to the end,
    leaving the inputs as they were and the output at `out2_4 x0 x1 x2 x3`. -/
theorem sound_kernel2 (c : Dev nD) (E : Set ℕ) (i : grid2.Coords)
    (arg1 : Memref sig .tc .vmem S1024x12x64 .f32) (harg1 : arg1.IsWhole) (arg2 : Memref sig .tc .vmem S1024x1x64 .f32) (harg2 : arg2.IsWhole)
    (arg3 : Memref sig .tc .vmem S1024x12 .f32) (harg3 : arg3.IsWhole) (arg4 : Memref sig .tc .vmem S1024x12 .f32) (harg4 : arg4.IsWhole)
    (arg5 : Memref sig .tc .vmem S1024x12x64 .f32) (harg5 : arg5.IsWhole)
    (x0 : Vec F S1024x12x64 .f32) (x1 : Vec F S1024x1x64 .f32) (x2 x3 : Vec F S1024x12 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__weighted_kernel i arg1 harg1 arg2 harg2 arg3 harg3 arg4 harg4 arg5 harg5) K := by
  simp only [cc2__weighted_kernel_eq_skeleton]; unfold cc2__weighted_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer still at its block and the output's at the weighted values of the four blocks; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2] <;> rfl
theorem after2_1 (c : Dev nD) (t : Fin cfg2.N) : (dat2 V c).after 1 t = iblk2 V c 1 t := by dsimp only [dat2] <;> rfl
theorem after2_2 (c : Dev nD) (t : Fin cfg2.N) : (dat2 V c).after 2 t = iblk2 V c 2 t := by dsimp only [dat2] <;> rfl
theorem after2_3 (c : Dev nD) (t : Fin cfg2.N) : (dat2 V c).after 3 t = iblk2 V c 3 t := by dsimp only [dat2] <;> rfl
theorem after2_4 (c : Dev nD) (t : Fin cfg2.N) :
    (dat2 V c).after 4 t = out2_4 (iblk2 V c 0 t) (iblk2 V c 1 t) (iblk2 V c 2 t) (iblk2 V c 3 t) := by dsimp only [dat2] <;> rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole run of the program, at any float instance: host operations, the projection kernel, host operations (the three
  slices of the projection, the gathers by edge), the score kernel, host operations (the scatter-add of the scores by
  target node and the gathers for the last kernel), the weighting kernel.
  The contents of the TensorCore's buffers are followed from the launch to the return as a fold: a stretch of host
  operations applies its operations' functions; a kernel region leaves its output array at what its write-backs leave
  and everything else as it found it. Every weakly fair execution terminates with every unscoped buffer at the fold's last
  value; no argument array is ever written, so each ends as launched.
-/
import proofs.«108313_j29489245454921_1_alg».proof.Proof.KI.Body0
import proofs.«108313_j29489245454921_1_alg».proof.Proof.KI.Body1
import proofs.«108313_j29489245454921_1_alg».proof.Proof.KI.Body2
import proofs.«108313_j29489245454921_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program -/

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (an input as entered, the output's write-backs folded
    over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the score kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (an input as entered, the output's write-backs folded
    over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the weighting kernel's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (an input as entered, the output's write-backs folded
    over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched: no host operation writes one and no kernel's window lies on one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W6 m ρ c) ∗ ∃ r, prngReg c r)

/-! ## The kernel regions as segments -/

set_option backward.isDefEq.respectTransparency.types false in
/-- Region 0 over the thread state: entered with every unscoped buffer at `W1`, left with them at `W2`. The
    region's arrays are split out of the unscoped buffers at the entry and put back, at what the write-backs leave, at the
    exit; the generator register goes into the pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. The
    region's arrays are split out of the unscoped buffers at the entry and put back, at what the write-backs leave, at the
    exit; the generator register goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. The
    region's arrays are split out of the unscoped buffers at the entry and put back, at what the write-backs leave, at the
    exit; the generator register goes into the pipeline's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state each unscoped buffer of each core holds the fold's last value. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c)⟩) (run_main m ρ)

end Cert.KernelIdeal.Fr

end
-- ==== Proof.KFinal.lean ====
/-
  The two programs' common mathematics, stated once over the extended reals.
  `Spec`: what each of the three kernels computes, as a function of the arrays it reads, entry by entry:
    the projection      P[r, j]      = (sum over k < 768 of x[r, k] * w[k, j]) + b[0, j];
    the scores          s[e, h]      = exp ((sum over d < 64 of q[e, h, d] * (k[e, h, d] + rel[e, 0, d])) * (1/8));
    the weighted values o[e, h, d]   = (v[e, h, d] + rel[e, 0, d]) * (s[e, h] / den[e, h]).
  `KFinal`: the whole kernel program's result as one function of the argument arrays, stage by stage as the program
  computes it: the flattened hidden states, the three transposed weight matrices side by side, the three biases end
  to end as one row; their projection; its three column thirds split into heads; rows gathered by edge (an index below
  zero counted from the end, as the program's host operations spell it); the scores; their sums by target node
  (a scatter-add into zeros) gathered back by edge; the weighted values.
-/
import proofs.«108313_j29489245454921_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Gen Idealize.ShloMosaic Idealize.ShloMosaic.ValueIdx

/-- Row `r`, column `j` of the projection. -/
def projAt (x : FVec Ideal S2048x768 .f32) (w : FVec Ideal S768x2304 .f32) (b : FVec Ideal S1x2304 .f32) (r : Fin 2048) (j : Fin 2304) : EReal :=
  (∑ k : Fin 768, x (ix2 r k) * w (ix2 k j)) + b (ix2 (0 : Fin 1) j)
/-- The projection as an array. -/
def proj (x : FVec Ideal S2048x768 .f32) (w : FVec Ideal S768x2304 .f32) (b : FVec Ideal S1x2304 .f32) : FVec Ideal S2048x2304 .f32 :=
  fun i => projAt x w b (i 0) (i 1)

/-- The score of edge `e` at head `h`. -/
def scoreAt (q k : FVec Ideal S131072x12x64 .f32) (rel : FVec Ideal S131072x1x64 .f32) (e : Fin 131072) (h : Fin 12) : EReal :=
  Ideal.exp ((∑ d : Fin 64, q (ix3 e h d) * (k (ix3 e h d) + rel (ix3 e (0 : Fin 1) d))) * Ideal.ofBits .f32 0x3E000000#32)
/-- The scores as an array. -/
def score (q k : FVec Ideal S131072x12x64 .f32) (rel : FVec Ideal S131072x1x64 .f32) : FVec Ideal S131072x12 .f32 :=
  fun i => scoreAt q k rel (i 0) (i 1)

/-- The weighted value of edge `e` at head `h`, feature `d`. -/
def weightedAt (v : FVec Ideal S131072x12x64 .f32) (rel : FVec Ideal S131072x1x64 .f32) (s den : FVec Ideal S131072x12 .f32)
    (e : Fin 131072) (h : Fin 12) (d : Fin 64) : EReal :=
  (v (ix3 e h d) + rel (ix3 e (0 : Fin 1) d)) * Ideal.div (s (ix2 e h)) (den (ix2 e h))
/-- The weighted values as an array. -/
def weighted (v : FVec Ideal S131072x12x64 .f32) (rel : FVec Ideal S131072x1x64 .f32) (s den : FVec Ideal S131072x12 .f32) : FVec Ideal S131072x12x64 .f32 :=
  fun i => weightedAt v rel s den (i 0) (i 1) (i 2)

end Cert.KernelIdeal.Spec

namespace Cert.KernelIdeal.KFinal

open Cert.KernelIdeal Cert.KernelIdeal.Gen Idealize.ShloMosaic Idealize.ShloMosaic.ValueIdx

/-- An index array as the gathers take it: an entry below zero has `n` added (counting from the end), then a trailing
    unit axis. -/
def idxN (n : BitVec 32) (a : (⟨S131072, .i32⟩ : BufTy).Contents (Elt Ideal)) : (⟨S131072x1, .i32⟩ : BufTy).Contents (Elt Ideal) :=
  broadcastInDim S131072x1 ![0] bcast_S131072_S131072x1_0
    (select (cmpi .slt a (broadcastInDim S131072 ![] bcast_S_S131072 (constantI S_ 32 0#32)))
      (addi a (broadcastInDim S131072 ![] bcast_S_S131072 (constantI S_ 32 n))) a)

section
variable (a0 : (⟨S4x512x768, .f32⟩ : BufTy).Contents (Elt Ideal))
  (a1 : (⟨S768x768, .f32⟩ : BufTy).Contents (Elt Ideal)) (a2 : (⟨S768, .f32⟩ : BufTy).Contents (Elt Ideal))
  (a3 : (⟨S768x768, .f32⟩ : BufTy).Contents (Elt Ideal)) (a4 : (⟨S768, .f32⟩ : BufTy).Contents (Elt Ideal))
  (a5 : (⟨S768x768, .f32⟩ : BufTy).Contents (Elt Ideal)) (a6 : (⟨S768, .f32⟩ : BufTy).Contents (Elt Ideal))
  (a7 a8 : (⟨S16x64, .f32⟩ : BufTy).Contents (Elt Ideal)) (a9 a10 a12 : (⟨S131072, .i32⟩ : BufTy).Contents (Elt Ideal))

/-- The hidden states with batch and position flattened. -/
def kX : (⟨S2048x768, .f32⟩ : BufTy).Contents (Elt Ideal) := shapeCast S2048x768 a0 shapeCasts_S4x512x768_S2048x768
/-- The three transposed weight matrices side by side. -/
def kW : (⟨S768x2304, .f32⟩ : BufTy).Contents (Elt Ideal) :=
  concatenate S768x2304 1 [⟨S768x768, transpose S768x768 [1, 0] a1 transposes_S768x768_S768x768_1_0⟩,
    ⟨S768x768, transpose S768x768 [1, 0] a3 transposes_S768x768_S768x768_1_0⟩,
    ⟨S768x768, transpose S768x768 [1, 0] a5 transposes_S768x768_S768x768_1_0⟩] concatenates_S768x768_S768x768_S768x768_S768x2304_d1
/-- The three biases end to end, as one row. -/
def kB : (⟨S1x2304, .f32⟩ : BufTy).Contents (Elt Ideal) :=
  shapeCast S1x2304 (concatenate S2304 0 [⟨S768, a2⟩, ⟨S768, a4⟩, ⟨S768, a6⟩] concatenates_S768_S768_S768_S2304_d0) shapeCasts_S2304_S1x2304
/-- The fused projection. -/
def kQKV : (⟨S2048x2304, .f32⟩ : BufTy).Contents (Elt Ideal) := Spec.proj (kX a0) (kW a1 a3 a5) (kB a2 a4 a6)
/-- Its three column thirds, split into heads: queries, keys, values. -/
def kQ : (⟨S2048x12x64, .f32⟩ : BufTy).Contents (Elt Ideal) :=
  shapeCast S2048x12x64 (extractStridedSlice S2048x768 ![0, 0] (kQKV a0 a1 a2 a3 a4 a5 a6) slices_S2048x2304_S2048x768_0_0) shapeCasts_S2048x768_S2048x12x64
def kK : (⟨S2048x12x64, .f32⟩ : BufTy).Contents (Elt Ideal) :=
  shapeCast S2048x12x64 (extractStridedSlice S2048x768 ![0, 768] (kQKV a0 a1 a2 a3 a4 a5 a6) slices_S2048x2304_S2048x768_0_768) shapeCasts_S2048x768_S2048x12x64
def kV : (⟨S2048x12x64, .f32⟩ : BufTy).Contents (Elt Ideal) :=
  shapeCast S2048x12x64 (extractStridedSlice S2048x768 ![0, 1536] (kQKV a0 a1 a2 a3 a4 a5 a6) slices_S2048x2304_S2048x768_0_1536) shapeCasts_S2048x768_S2048x12x64
/-- The target nodes' queries and the source nodes' keys, by edge; the relative-key rows by edge, with a unit head axis. -/
def kQg : (⟨S131072x12x64, .f32⟩ : BufTy).Contents (Elt Ideal) :=
  Host.gather gather_S2048x12x64_S131072x1_S131072x12x64_12_0_n_n_0_1_11264 (kQ a0 a1 a2 a3 a4 a5 a6) (idxN 2048#32 a10)
def kKg : (⟨S131072x12x64, .f32⟩ : BufTy).Contents (Elt Ideal) :=
  Host.gather gather_S2048x12x64_S131072x1_S131072x12x64_12_0_n_n_0_1_11264 (kK a0 a1 a2 a3 a4 a5 a6) (idxN 2048#32 a9)
def kRelK : (⟨S131072x1x64, .f32⟩ : BufTy).Contents (Elt Ideal) :=
  shapeCast S131072x1x64 (Host.gather gather_S16x64_S131072x1_S131072x64_1_0_n_n_0_1_164 a7 (idxN 16#32 a12)) shapeCasts_S131072x64_S131072x1x64
/-- The scores. -/
def kSC : (⟨S131072x12, .f32⟩ : BufTy).Contents (Elt Ideal) :=
  Spec.score (kQg a0 a1 a2 a3 a4 a5 a6 a10) (kKg a0 a1 a2 a3 a4 a5 a6 a9) (kRelK a7 a12)
/-- The source nodes' values by edge; the relative-value rows by edge. -/
def kVg : (⟨S131072x12x64, .f32⟩ : BufTy).Contents (Elt Ideal) :=
  Host.gather gather_S2048x12x64_S131072x1_S131072x12x64_12_0_n_n_0_1_11264 (kV a0 a1 a2 a3 a4 a5 a6) (idxN 2048#32 a9)
def kRelV : (⟨S131072x1x64, .f32⟩ : BufTy).Contents (Elt Ideal) :=
  shapeCast S131072x1x64 (Host.gather gather_S16x64_S131072x1_S131072x64_1_0_n_n_0_1_164 a8 (idxN 16#32 a12)) shapeCasts_S131072x64_S131072x1x64
/-- The scores summed by target node, gathered back by edge. -/
def kDen : (⟨S131072x12, .f32⟩ : BufTy).Contents (Elt Ideal) :=
  Host.gather gather_S2048x12_S131072x1_S131072x12_1_0_n_n_0_1_112
    (Host.scatterAdd (F := Ideal) scatter_S2048x12_S131072x1_S131072x12_1_0_0_1
      (broadcastInDim S2048x12 ![] bcast_S_S2048x12 (constant (F := Ideal) S_ .f32 0x00000000#32))
      (broadcastInDim S131072x1 ![0] bcast_S131072_S131072x1_0 a10)
      (kSC a0 a1 a2 a3 a4 a5 a6 a7 a9 a10 a12))
    (idxN 2048#32 a10)
/-- The program's result. -/
def kOut : (⟨S131072x12x64, .f32⟩ : BufTy).Contents (Elt Ideal) :=
  Spec.weighted (kVg a0 a1 a2 a3 a4 a5 a6 a9) (kRelV a8 a12) (kSC a0 a1 a2 a3 a4 a5 a6 a7 a9 a10 a12) (kDen a0 a1 a2 a3 a4 a5 a6 a7 a9 a10 a12)

end

end Cert.KernelIdeal.KFinal

end
-- ==== Proof.KI.Val0.lean ====
/-
  What the projection kernel leaves in its output array, over the extended reals: entry (r, j) of the 2048 x 2304 array is
  the sum over k of x[r, k] * w[k, j] plus b[0, j], where x, w, b are the three arrays the kernel reads as the region
  finds them. Point t of the grid writes rows 256 t … 256 t + 255; the eight row blocks tile the array.
-/
import proofs.«108313_j29489245454921_1_alg».proof.Proof.KI.Body0
import proofs.«108313_j29489245454921_1_alg».proof.Proof.KFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's arithmetic at an entry of the block -/

/-- The two zero offsets of a whole-block access, as a constant function. -/
theorem proj_zero_offsets : (![0, 0] : Fin 2 → Nat) = fun _ => 0 := funext fun a => by fin_cases a <;> rfl

/-- The product's left operand is read at the output's row … -/
theorem proj_dot_lhs_0 (i : S256x2304.Idx) (q : dot_S256x768_S768x2304_S256x2304_1_0_0_1_n_n.contr.Idx) :
    (dot_S256x768_S768x2304_S256x2304_1_0_0_1_n_n.lhsIdx i q 0).val = (i 0).val := by
  unfold DotDims.lhsIdx
  rw [dif_neg (show ¬(0 : Fin S256x768.rank) ∈ dot_S256x768_S768x2304_S256x2304_1_0_0_1_n_n.lhsBatch by decide), dif_pos (show (0 : Fin S256x768.rank) ∈ dot_S256x768_S768x2304_S256x2304_1_0_0_1_n_n.lhsNonContracting by decide)]
  rfl
/-- … and the contracted index, -/
theorem proj_dot_lhs_1 (i : S256x2304.Idx) (q : dot_S256x768_S768x2304_S256x2304_1_0_0_1_n_n.contr.Idx) :
    (dot_S256x768_S768x2304_S256x2304_1_0_0_1_n_n.lhsIdx i q 1).val = (q ⟨0, by decide⟩).val :=
  dot_S256x768_S768x2304_S256x2304_1_0_0_1_n_n.lhsIdx_val_of_single rfl i q
/-- the right operand at the contracted index … -/
theorem proj_dot_rhs_0 (i : S256x2304.Idx) (q : dot_S256x768_S768x2304_S256x2304_1_0_0_1_n_n.contr.Idx) :
    (dot_S256x768_S768x2304_S256x2304_1_0_0_1_n_n.rhsIdx i q 0).val = (q ⟨0, by decide⟩).val :=
  dot_S256x768_S768x2304_S256x2304_1_0_0_1_n_n.rhsIdx_val_of_single rfl i q
/-- … and the output's column. -/
theorem proj_dot_rhs_1 (i : S256x2304.Idx) (q : dot_S256x768_S768x2304_S256x2304_1_0_0_1_n_n.contr.Idx) :
    (dot_S256x768_S768x2304_S256x2304_1_0_0_1_n_n.rhsIdx i q 1).val = (i 1).val := by
  unfold DotDims.rhsIdx
  rw [dif_neg (show ¬(1 : Fin S768x2304.rank) ∈ dot_S256x768_S768x2304_S256x2304_1_0_0_1_n_n.rhsBatch by decide), dif_pos (show (1 : Fin S768x2304.rank) ∈ dot_S256x768_S768x2304_S256x2304_1_0_0_1_n_n.rhsNonContracting by decide)]
  rfl

/-- The matrix product into a zero accumulator, at entry (p, q): the sum over k < 768 of l[p, k] * r[k, q]. Over the
    extended reals the product has no rounding and no order; the contraction's one axis is re-indexed by k. -/
theorem proj_product_at (l : FVec Ideal S256x768 .bf16) (r : FVec Ideal S768x2304 .bf16) (p : Fin 256) (q : Fin 2304) :
    matmul dot_S256x768_S768x2304_S256x2304_1_0_0_1_n_n none l r (constant (F := Ideal) S256x2304 .f32 0x00000000#32) (ix2 p q)
      = ∑ k : Fin 768, l (ix2 p k) * r (ix2 k q) := by
  simp only [matmul]
  rw [Ideal.matmul_constant_zero_apply, ← Equiv.sum_comp (ValueIdx.contrEquiv1 dot_S256x768_S768x2304_S256x2304_1_0_0_1_n_n 768 rfl rfl).symm]
  refine Finset.sum_congr rfl fun k _ => ?_
  have hk := ValueIdx.contrEquiv1_symm_val dot_S256x768_S768x2304_S256x2304_1_0_0_1_n_n 768 rfl rfl k
  have el : dot_S256x768_S768x2304_S256x2304_1_0_0_1_n_n.lhsIdx (ix2 p q) ((ValueIdx.contrEquiv1 dot_S256x768_S768x2304_S256x2304_1_0_0_1_n_n 768 rfl rfl).symm k) = ix2 p k := funext fun a => Fin.ext (by
    match a with
    | ⟨0, _⟩ => exact proj_dot_lhs_0 _ _
    | ⟨1, _⟩ => exact (proj_dot_lhs_1 _ _).trans hk)
  have er : dot_S256x768_S768x2304_S256x2304_1_0_0_1_n_n.rhsIdx (ix2 p q) ((ValueIdx.contrEquiv1 dot_S256x768_S768x2304_S256x2304_1_0_0_1_n_n 768 rfl rfl).symm k) = ix2 k q := funext fun a => Fin.ext (by
    match a with
    | ⟨0, _⟩ => exact (proj_dot_rhs_0 _ _).trans hk
    | ⟨1, _⟩ => exact proj_dot_rhs_1 _ _)
  rw [el, er]

/-- The bias row repeated down the 256 rows, at entry (p, q): b[0, q]. -/
theorem proj_biasRow_at (b : FVec Ideal S1x2304 .f32) (p : Fin 256) (q : Fin 2304) :
    broadcastTo S256x2304 b broadcasts_S1x2304_S256x2304 (ix2 p q) = b (ix2 (0 : Fin 1) q) := by
  refine broadcastTo_apply b broadcasts_S1x2304_S256x2304 (ix2 p q) (ix2 (0 : Fin 1) q) fun a => ?_
  match a with
  | ⟨0, _⟩ => rfl
  | ⟨1, _⟩ => rfl

/-- What the body stores, at entry (p, q) of the block: the sum over k of x0[p, k] * x1[k, q], plus x2[0, q]. The casts
    to the same shape are the identity and a change of float format does nothing to an extended real. -/
theorem proj_payload_at (x0 : Vec Ideal S256x768 .f32) (x1 : Vec Ideal S768x2304 .f32) (x2 : Vec Ideal S1x2304 .f32) (p : Fin 256) (q : Fin 2304) :
    k0_pay1 (F := Ideal) x0 x1 x2 (ix2 p q) = (∑ k : Fin 768, x0 (ix2 p k) * x1 (ix2 k q)) + x2 (ix2 (0 : Fin 1) q) := by
  unfold k0_pay1
  simp only [shapeCast_self]
  rw [addf_apply, proj_product_at, proj_biasRow_at]
  rfl

/-- So, if x0 is rows 256 n … 256 n + 255 of X, x1 is W and x2 is B, entry j of what the body stores is entry
    (256 n + j 0, j 1) of the projection of X, W, B. -/
theorem proj_payload_block (X : FVec Ideal S2048x768 .f32) (W : FVec Ideal S768x2304 .f32) (B : FVec Ideal S1x2304 .f32)
    (x0 : Vec Ideal S256x768 .f32) (x1 : Vec Ideal S768x2304 .f32) (x2 : Vec Ideal S1x2304 .f32) (n : Nat)
    (h0 : ∀ (p : Fin 256) (k : Fin 768) (r : Fin 2048), r.val = n * 256 + p.val → x0 (ix2 p k) = X (ix2 r k))
    (h1 : ∀ (k : Fin 768) (q : Fin 2304), x1 (ix2 k q) = W (ix2 k q))
    (h2 : ∀ q : Fin 2304, x2 (ix2 (0 : Fin 1) q) = B (ix2 (0 : Fin 1) q))
    (j : S256x2304.Idx) (i : S2048x2304.Idx) (hi0 : (i 0).val = n * 256 + (j 0).val) (hi1 : (i 1).val = (j 1).val) :
    k0_pay1 (F := Ideal) x0 x1 x2 j = Spec.proj X W B i := by
  obtain ⟨p, q, rfl⟩ : ∃ (p : Fin 256) (q : Fin 2304), j = ix2 p q := ⟨j 0, j 1, eq_ix2 j⟩
  obtain ⟨r, s, rfl⟩ : ∃ (r : Fin 2048) (s : Fin 2304), i = ix2 r s := ⟨i 0, i 1, eq_ix2 i⟩
  have hs : s = q := Fin.ext hi1
  subst hs
  rw [proj_payload_at]
  show _ = (∑ k : Fin 768, X (ix2 r k) * W (ix2 k s)) + B (ix2 (0 : Fin 1) s)
  rw [h2 s]
  refine congrArg (· + B (ix2 (0 : Fin 1) s)) (Finset.sum_congr rfl fun k _ => ?_)
  rw [h0 p k r hi0, h1 k s]

/-! ## The blocks at a grid point, and the array after the run -/

variable (V : (c : Dev nD) → (b : Ref sig .tc) → Buf (Elt Ideal) ((c : Thread nD τ).loc b))

/-- The block indices over the grid: at point t the row block and the output block are block t of their arrays'
    rows; the weight matrix and the bias row are always their arrays' one block. -/
theorem proj_blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row block at point t is rows 256 t … 256 t + 255 of the hidden states. -/
theorem proj_rows_blk (c : Dev nD) (t : Fin cfg0.N) (y : S256x768.Idx) (i : S2048x768.Idx)
    (h0 : (i 0).val = t.val * 256 + (y 0).val) (h1 : (i 1).val = (y 1).val) :
    (iblk0 V c 0 t : Vec Ideal S256x768 .f32) y = (V c main_v0 : S2048x768.Idx → Elt Ideal .f32) i := by
  obtain ⟨e0, e1, -⟩ := proj_blockIndex t
  unfold iblk0
  rw [View.read_apply]
  show V c main_v0 _ = V c main_v0 _
  congr 1
  funext a
  apply Fin.ext
  match a with
  | ⟨0, _⟩ => show win0_0.index t 0 * 256 + 1 * (y 0).val = (i 0).val; rw [e0, h0]; omega
  | ⟨1, _⟩ => show win0_0.index t 1 * 768 + 1 * (y 1).val = (i 1).val; rw [e1, h1]; omega

/-- The weight block at any point is the whole weight matrix. -/
theorem proj_weights_blk (c : Dev nD) (t : Fin cfg0.N) (y : S768x2304.Idx) :
    (iblk0 V c 1 t : Vec Ideal S768x2304 .f32) y = (V c main_v4 : S768x2304.Idx → Elt Ideal .f32) y := by
  obtain ⟨-, -, e0, e1, -⟩ := proj_blockIndex t
  unfold iblk0
  rw [View.read_apply]
  show V c main_v4 _ = V c main_v4 _
  congr 1
  funext a
  apply Fin.ext
  match a with
  | ⟨0, _⟩ => show win0_1.index t 0 * 768 + 1 * (y 0).val = (y 0).val; rw [e0]; omega
  | ⟨1, _⟩ => show win0_1.index t 1 * 2304 + 1 * (y 1).val = (y 1).val; rw [e1]; omega

/-- The bias block at any point is the whole bias row. -/
theorem proj_bias_blk (c : Dev nD) (t : Fin cfg0.N) (y : S1x2304.Idx) :
    (iblk0 V c 2 t : Vec Ideal S1x2304 .f32) y = (V c main_v6 : S1x2304.Idx → Elt Ideal .f32) y := by
  obtain ⟨-, -, -, -, e0, e1, -⟩ := proj_blockIndex t
  unfold iblk0
  rw [View.read_apply]
  show V c main_v6 _ = V c main_v6 _
  congr 1
  funext a
  apply Fin.ext
  match a with
  | ⟨0, _⟩ => show win0_2.index t 0 * 1 + 1 * (y 0).val = (y 0).val; rw [e0]; omega
  | ⟨1, _⟩ => show win0_2.index t 1 * 2304 + 1 * (y 1).val = (y 1).val; rw [e1]; omega

/-- What point t writes back is rows 256 t … 256 t + 255 of the projection of the three arrays: the body's one store
    covers the whole output block, and entry j of it sits at row 256 t + j 0, column j 1 of the array. -/
theorem proj_written_back (c : Dev nD) (t : Fin cfg0.N) :
    (dat0 V c).flushed 3 t = ((cfg0.win 3).blk t).view.read (Elt Ideal) (Spec.proj (V c main_v0) (V c main_v4) (V c main_v6)) := by
  show (cfg0.win 3).cut (grid0.coords t) ((dat0 V c).after 3 t) = _
  rw [after0_3]
  unfold out0_3
  rw [View.canon_unit_zero proj_zero_offsets]
  simp only [View.ld_unit_zero (S := S256x768) proj_zero_offsets, View.ld_unit_zero (S := S768x2304) proj_zero_offsets,
    View.ld_unit_zero (S := S1x2304) proj_zero_offsets]
  funext j
  show k0_pay1 (F := Ideal) (iblk0 V c 0 t) (iblk0 V c 1 t) (iblk0 V c 2 t) j
    = Spec.proj (V c main_v0) (V c main_v4) (V c main_v6) (((cfg0.win 3).blk t).view.emb j)
  obtain ⟨-, -, -, -, -, -, e0, e1⟩ := proj_blockIndex t
  refine proj_payload_block (V c main_v0) (V c main_v4) (V c main_v6) (iblk0 V c 0 t) (iblk0 V c 1 t) (iblk0 V c 2 t) t.val
    (fun p k r hr => proj_rows_blk V c t (ix2 p k) (ix2 r k) hr rfl) (fun k q => proj_weights_blk V c t (ix2 k q))
    (fun q => proj_bias_blk V c t (ix2 (0 : Fin 1) q)) j (((cfg0.win 3).blk t).view.emb j) ?_ ?_
  · show win0_3.index t 0 * 256 + 1 * (j 0).val = t.val * 256 + (j 0).val; rw [e0]; omega
  · show win0_3.index t 1 * 2304 + 1 * (j 1).val = (j 1).val; rw [e1]; omega

/-- An entry of the output array is in point t's block iff each coordinate is in the block's range on its axis. -/
theorem proj_mem_rowBlock (t : Fin cfg0.N) (i : S2048x2304.Idx) :
    i ∈ ((cfg0.win 3).blk t).view.set ↔ ∀ a : Fin 2, win0_3.index t a * S256x2304.size a ≤ (i a).val ∧ (i a).val < win0_3.index t a * S256x2304.size a + S256x2304.size a := by
  show i ∈ ((View.whole main_v7).slice (win0_3.rect t)).set ↔ _
  rw [View.set_slice_whole, Rect.mem_set_unit]
  exact Iff.rfl

/-- The eight row blocks tile the array: row r is in the block of point r / 256, and every point writes its block back. -/
theorem proj_rowBlocks_cover (i : S2048x2304.Idx) : ∃ t : Fin cfg0.N, (cfg0.win 3).flush t = true ∧ i ∈ ((cfg0.win 3).blk t).view.set := by
  have hi0 : (i 0).val < 2048 := (i 0).isLt
  have hi1 : (i 1).val < 2304 := (i 1).isLt
  have hN : grid0.N = 8 := N_0
  obtain ⟨t, ht⟩ : ∃ t : Fin cfg0.N, t.val = (i 0).val / 256 := ⟨⟨(i 0).val / 256, by show (i 0).val / 256 < grid0.N; rw [hN]; omega⟩, rfl⟩
  obtain ⟨-, -, -, -, -, -, e0, e1⟩ := proj_blockIndex t
  refine ⟨t, flush0_3 t, ?_⟩
  rw [proj_mem_rowBlock]
  intro a
  match a with
  | ⟨0, _⟩ => show win0_3.index t 0 * 256 ≤ (i 0).val ∧ (i 0).val < win0_3.index t 0 * 256 + 256; rw [e0, ht]; omega
  | ⟨1, _⟩ => show win0_3.index t 1 * 2304 ≤ (i 1).val ∧ (i 1).val < win0_3.index t 1 * 2304 + 2304; rw [e1]; omega

/-- The projection kernel's output array after the run is the projection of the three arrays it reads. -/
theorem final0 (c : Dev nD) : (dat0 V c).arrAt 3 cfg0.N = Spec.proj (V c main_v0) (V c main_v4) (V c main_v6) :=
  (dat0 V c).arrAt_eq_of_cover 3 (Spec.proj (V c main_v0) (V c main_v4) (V c main_v6)) (fun t _ => proj_written_back V c t) proj_rowBlocks_cover

end Cert.KernelIdeal.Fr

end
-- ==== Proof.KI.Val1.lean ====
/-
  What the score kernel leaves in its output array, over the extended reals: entry (e, h) of the 131072 x 12 array is
  exp ((sum over d of q[e, h, d] * (k[e, h, d] + rel[e, 0, d])) * (1/8)), where q, k, rel are the three arrays the kernel
  reads as the region finds them. Point t of the grid writes edges 1024 t … 1024 t + 1023; the 128 blocks tile the array.
-/
import proofs.«108313_j29489245454921_1_alg».proof.Proof.KI.Body1
import proofs.«108313_j29489245454921_1_alg».proof.Proof.KFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The offsets of a whole-buffer access are all zero, at rank 3 and at rank 2. -/
theorem score_hz3 : (![0, 0, 0] : Fin 3 → Nat) = fun _ => 0 := funext fun a => by fin_cases a <;> rfl
theorem score_hz2 : (![0, 0] : Fin 2 → Nat) = fun _ => 0 := funext fun a => by fin_cases a <;> rfl

/-- The sum over the 64 features, at an edge and a head of the block. -/
theorem score_laneSum_apply (v : FVec Ideal S1024x12x64 .f32) (hφ : FKind.Formats .f32)
    (hacc : (0x00000000#32 : BitVec 32) = 0x00000000#32) (r : Fin 1024) (h : Fin 12) :
    multiReduction (F := Ideal) .add [2] S1024x12 v 0x00000000#32 reduces_S1024x12x64_S1024x12 hφ hacc (ix2 r h)
      = ∑ d : Fin 64, v (ix3 r h d) := by
  refine (Ideal.multiReduction_add_single v 0x00000000#32 reduces_S1024x12x64_S1024x12 hφ hacc (ix2 r h)).trans ?_
  refine Finset.sum_congr rfl fun d _ => congrArg v ?_
  funext a
  match a with
  | ⟨0, _⟩ => rfl
  | ⟨1, _⟩ => rfl
  | ⟨2, _⟩ => rfl

/-- The relative-key rows laid along the heads: every head reads the one row. -/
theorem score_relBroadcast_apply (x : FVec Ideal S1024x1x64 .f32) (r : Fin 1024) (h : Fin 12) (d : Fin 64) :
    broadcastTo S1024x12x64 x broadcasts_S1024x1x64_S1024x12x64 (ix3 r h d) = x (ix3 r (0 : Fin 1) d) := by
  refine broadcastTo_apply x broadcasts_S1024x1x64_S1024x12x64 (ix3 r h d) (ix3 r (0 : Fin 1) d) fun a => ?_
  match a with
  | ⟨0, _⟩ => rfl
  | ⟨1, _⟩ => rfl
  | ⟨2, _⟩ => rfl

/-- The body's payload at edge `r` and head `h` of the block: the exponential of an eighth of the sum over the features
    of query times (key plus relative key). -/
theorem score_pay_apply (x0 x1 : Vec Ideal S1024x12x64 .f32) (x2 : Vec Ideal S1024x1x64 .f32) (r : Fin 1024) (h : Fin 12) :
    k1_pay1 x0 x1 x2 (ix2 r h)
      = Ideal.exp ((∑ d : Fin 64, x0 (ix3 r h d) * (x1 (ix3 r h d) + x2 (ix3 r (0 : Fin 1) d))) * Ideal.ofBits .f32 0x3E000000#32) := by
  unfold k1_pay1
  simp only [shapeCast_self]
  show Ideal.exp (multiReduction (F := Ideal) .add [2] S1024x12 _ 0x00000000#32 reduces_S1024x12x64_S1024x12 _ _ (ix2 r h) * Ideal.ofBits .f32 0x3E000000#32) = _
  rw [score_laneSum_apply]
  refine congrArg (fun s => Ideal.exp (s * Ideal.ofBits .f32 0x3E000000#32)) (Finset.sum_congr rfl fun d _ => ?_)
  show x0 (ix3 r h d) * (x1 (ix3 r h d) + broadcastTo S1024x12x64 x2 broadcasts_S1024x1x64_S1024x12x64 (ix3 r h d)) = _
  rw [score_relBroadcast_apply]

/-- Where each window's block sits at point `t`: edge block `t`, all heads and features. -/
theorem score_idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- A block whose entries are the three arrays' entries at edge `e` has, at its edge `r` and head `h`, the score of `e` at `h`. -/
theorem score_block (q k : FVec Ideal S131072x12x64 .f32) (rel : FVec Ideal S131072x1x64 .f32)
    (x0 x1 : Vec Ideal S1024x12x64 .f32) (x2 : Vec Ideal S1024x1x64 .f32) (r : Fin 1024) (h : Fin 12) (e : Fin 131072) (h' : Fin 12)
    (h0 : ∀ d : Fin 64, x0 (ix3 r h d) = q (ix3 e h' d))
    (h1 : ∀ d : Fin 64, x1 (ix3 r h d) = k (ix3 e h' d))
    (h2 : ∀ d : Fin 64, x2 (ix3 r (0 : Fin 1) d) = rel (ix3 e (0 : Fin 1) d)) :
    k1_pay1 x0 x1 x2 (ix2 r h) = Spec.scoreAt q k rel e h' := by
  rw [score_pay_apply]
  unfold Spec.scoreAt
  simp only [h0, h1, h2]

/-- The query block at point `t` is edges `1024 t …` of the query array. -/
theorem score_iblk0_apply (c : Dev nD) (t : Fin cfg1.N) (r : Fin 1024) (h : Fin 12) (d : Fin 64) (e : Fin 131072) (h' : Fin 12)
    (he : e.val = t.val * 1024 + r.val) (hh : h'.val = h.val) :
    (iblk1 V c 0 t : Vec Ideal S1024x12x64 .f32) (ix3 r h d) = (V c main_v20 : FVec Ideal S131072x12x64 .f32) (ix3 e h' d) := by
  obtain ⟨e0, e1, e2, -⟩ := score_idx_facts t
  unfold iblk1
  rw [View.read_apply]
  show V c main_v20 _ = V c main_v20 _
  congr 1
  funext a
  apply Fin.ext
  match a with
  | ⟨0, _⟩ => show win1_0.index t (0 : Fin 3) * 1024 + 1 * r.val = e.val; rw [e0, he]; omega
  | ⟨1, _⟩ => show win1_0.index t (1 : Fin 3) * 12 + 1 * h.val = h'.val; rw [e1, hh]; omega
  | ⟨2, _⟩ => show win1_0.index t (2 : Fin 3) * 64 + 1 * d.val = d.val; rw [e2]; omega

/-- The key block at point `t` is edges `1024 t …` of the key array. -/
theorem score_iblk1_apply (c : Dev nD) (t : Fin cfg1.N) (r : Fin 1024) (h : Fin 12) (d : Fin 64) (e : Fin 131072) (h' : Fin 12)
    (he : e.val = t.val * 1024 + r.val) (hh : h'.val = h.val) :
    (iblk1 V c 1 t : Vec Ideal S1024x12x64 .f32) (ix3 r h d) = (V c main_v27 : FVec Ideal S131072x12x64 .f32) (ix3 e h' d) := by
  obtain ⟨-, -, -, e0, e1, e2, -⟩ := score_idx_facts t
  unfold iblk1
  rw [View.read_apply]
  show V c main_v27 _ = V c main_v27 _
  congr 1
  funext a
  apply Fin.ext
  match a with
  | ⟨0, _⟩ => show win1_1.index t (0 : Fin 3) * 1024 + 1 * r.val = e.val; rw [e0, he]; omega
  | ⟨1, _⟩ => show win1_1.index t (1 : Fin 3) * 12 + 1 * h.val = h'.val; rw [e1, hh]; omega
  | ⟨2, _⟩ => show win1_1.index t (2 : Fin 3) * 64 + 1 * d.val = d.val; rw [e2]; omega

/-- The relative-key block at point `t` is edges `1024 t …` of the relative-key array. -/
theorem score_iblk2_apply (c : Dev nD) (t : Fin cfg1.N) (r : Fin 1024) (d : Fin 64) (e : Fin 131072)
    (he : e.val = t.val * 1024 + r.val) :
    (iblk1 V c 2 t : Vec Ideal S1024x1x64 .f32) (ix3 r (0 : Fin 1) d) = (V c main_v35 : FVec Ideal S131072x1x64 .f32) (ix3 e (0 : Fin 1) d) := by
  obtain ⟨-, -, -, -, -, -, e0, e1, e2, -⟩ := score_idx_facts t
  unfold iblk1
  rw [View.read_apply]
  show V c main_v35 _ = V c main_v35 _
  congr 1
  funext a
  apply Fin.ext
  match a with
  | ⟨0, _⟩ => show win1_2.index t (0 : Fin 3) * 1024 + 1 * r.val = e.val; rw [e0, he]; omega
  | ⟨1, _⟩ => show win1_2.index t (1 : Fin 3) * 1 + 1 * 0 = 0; rw [e1]
  | ⟨2, _⟩ => show win1_2.index t (2 : Fin 3) * 64 + 1 * d.val = d.val; rw [e2]; omega

/-- What point `t` writes back is block `t` of the scores of the three arrays as the region finds them. -/
theorem score_flushed_eq (c : Dev nD) (t : Fin cfg1.N) :
    (dat1 V c).flushed 3 t = ((cfg1.win 3).blk t).view.read (Elt Ideal) (Spec.score (V c main_v20) (V c main_v27) (V c main_v35)) := by
  show (cfg1.win 3).cut (grid1.coords t) ((dat1 V c).after 3 t) = _
  rw [after1_3]
  unfold out1_3
  rw [View.canon_unit_zero score_hz2]
  simp only [View.ld_unit_zero (S := S1024x12x64) score_hz3, View.ld_unit_zero (S := S1024x1x64) score_hz3]
  funext y
  obtain ⟨r, h, rfl⟩ : ∃ (r : Fin 1024) (h : Fin 12), y = ix2 r h := ⟨y 0, y 1, eq_ix2 y⟩
  have hN : cfg1.N = 128 := N_1
  have ht : t.val < 128 := by have := t.isLt; omega
  obtain ⟨-, -, -, -, -, -, -, -, -, e0, e1⟩ := score_idx_facts t
  have hidx : (((cfg1.win 3).blk t).view.emb (ix2 r h) : S131072x12.Idx) = ix2 (⟨t.val * 1024 + r.val, by omega⟩ : Fin 131072) h := by
    funext a
    apply Fin.ext
    match a with
    | ⟨0, _⟩ => show win1_3.index t (0 : Fin 2) * 1024 + 1 * r.val = t.val * 1024 + r.val; rw [e0]; omega
    | ⟨1, _⟩ => show win1_3.index t (1 : Fin 2) * 12 + 1 * h.val = h.val; rw [e1]; omega
  show k1_pay1 (iblk1 V c 0 t) (iblk1 V c 1 t) (iblk1 V c 2 t) (ix2 r h)
    = Spec.score (V c main_v20) (V c main_v27) (V c main_v35) (((cfg1.win 3).blk t).view.emb (ix2 r h))
  rw [hidx]
  exact score_block (V c main_v20) (V c main_v27) (V c main_v35) (iblk1 V c 0 t) (iblk1 V c 1 t) (iblk1 V c 2 t) r h
    (⟨t.val * 1024 + r.val, by omega⟩ : Fin 131072) h
    (fun d => score_iblk0_apply V c t r h d _ h rfl rfl)
    (fun d => score_iblk1_apply V c t r h d _ h rfl rfl)
    (fun d => score_iblk2_apply V c t r d _ rfl)

/-- An entry of the score array is in point `t`'s block iff each coordinate is in the block's range on its axis. -/
theorem score_mem_blk (t : Fin cfg1.N) (i : S131072x12.Idx) :
    i ∈ ((cfg1.win 3).blk t).view.set ↔ ∀ a : Fin 2, win1_3.index t a * S1024x12.size a ≤ (i a).val ∧ (i a).val < win1_3.index t a * S1024x12.size a + S1024x12.size a := by
  show i ∈ ((View.whole main_v36).slice (win1_3.rect t)).set ↔ _
  rw [View.set_slice_whole, Rect.mem_set_unit]
  exact Iff.rfl

/-- The blocks tile the score array: edge `e` is in the block of point `e / 1024`. -/
theorem score_cover (i : S131072x12.Idx) : ∃ t : Fin cfg1.N, (cfg1.win 3).flush t = true ∧ i ∈ ((cfg1.win 3).blk t).view.set := by
  have hi0 : (i 0).val < 131072 := (i 0).isLt
  have hi1 : (i 1).val < 12 := (i 1).isLt
  have hN : cfg1.N = 128 := N_1
  obtain ⟨t, ht⟩ : ∃ t : Fin cfg1.N, t.val = (i 0).val / 1024 := ⟨⟨(i 0).val / 1024, by omega⟩, rfl⟩
  obtain ⟨-, -, -, -, -, -, -, -, -, e0, e1⟩ := score_idx_facts t
  refine ⟨t, flush1_3 t, ?_⟩
  rw [score_mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 12 ≤ (i 1).val ∧ (i 1).val < win1_3.index t (1 : Fin 2) * 12 + 12; omega

/-- The score kernel's output array after the run is the scores of the three arrays it reads. -/
theorem final1 (c : Dev nD) : (dat1 V c).arrAt 3 cfg1.N = Spec.score (V c main_v20) (V c main_v27) (V c main_v35) :=
  (dat1 V c).arrAt_eq_of_cover 3 (Spec.score (V c main_v20) (V c main_v27) (V c main_v35)) (fun t _ => score_flushed_eq V c t) score_cover

end Cert.KernelIdeal.Fr

end
-- ==== Proof.KI.Val2.lean ====
/-
  What the weighting kernel leaves in its output array, over the extended reals: entry (e, h, d) of the 131072 x 12 x 64
  array is (v[e, h, d] + rel[e, 0, d]) * (s[e, h] / den[e, h]), where v, rel, s, den are the four arrays the kernel reads as
  the region finds them. Point t of the grid writes edges 1024 t … 1024 t + 1023; the 128 blocks tile the array.
-/
import proofs.«108313_j29489245454921_1_alg».proof.Proof.KI.Body2
import proofs.«108313_j29489245454921_1_alg».proof.Proof.KFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Weighted

/-! ## Layout operations of the payload, read at an index -/

/-- An [a, 1, b] array broadcast along its unit axis reads, at (p, k, c), the operand at (p, 0, c). -/
theorem broadcastTo_a1b_aqb_apply {α : Type} {a q b : ℕ} (v : (⟨3, ![a, 1, b]⟩ : Shape).Idx → α)
    (h : (⟨3, ![a, 1, b]⟩ : Shape).Broadcasts ⟨3, ![a, q, b]⟩) (p : Fin a) (k : Fin q) (c : Fin b) :
    broadcastTo ⟨3, ![a, q, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- An [a, b, 1] array broadcast along its trailing unit axis reads, at (p, k, c), the operand at (p, k, 0). -/
theorem broadcastTo_ab1_abq_apply {α : Type} {a b q : ℕ} (v : (⟨3, ![a, b, 1]⟩ : Shape).Idx → α)
    (h : (⟨3, ![a, b, 1]⟩ : Shape).Broadcasts ⟨3, ![a, b, q]⟩) (p : Fin a) (k : Fin b) (c : Fin q) :
    broadcastTo ⟨3, ![a, b, q]⟩ v h (ix3 p k c) = v (ix3 p k (0 : Fin 1)) := by
  refine broadcastTo_apply v h (ix3 p k c) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- An [a, b] array cast to [a, b, 1] reads, at (i, j, u), the operand at (i, j): the two row-major positions agree. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The payload at an index -/

/-- The stored value at edge r of the block, head h, feature d: value plus relative value (the one row of the unit head
    axis) times the quotient of score and denominator at (r, h). -/
theorem pay_apply (x0 : Vec Ideal S1024x12x64 .f32) (x1 : Vec Ideal S1024x1x64 .f32) (x2 x3 : Vec Ideal S1024x12 .f32)
    (r : Fin 1024) (h : Fin 12) (d : Fin 64) :
    k2_pay1 x0 x1 x2 x3 (ix3 r h d) = (x0 (ix3 r h d) + x1 (ix3 r (0 : Fin 1) d)) * Ideal.div (x2 (ix2 r h)) (x3 (ix2 r h)) := by
  unfold k2_pay1
  simp only [shapeCast_self]
  rw [mulf_apply, addf_apply]
  rw [broadcastTo_a1b_aqb_apply x1 broadcasts_S1024x1x64_S1024x12x64 r h d,
    broadcastTo_ab1_abq_apply _ broadcasts_S1024x12x1_S1024x12x64 r h d,
    shapeCast_ab_ab1_apply _ shapeCasts_S1024x12_S1024x12x1 r h (0 : Fin 1), divf_apply]

/-! ## The blocks of point t, read off their arrays -/

theorem zero3 : (![0, 0, 0] : Fin 3 → Nat) = fun _ => 0 := funext fun a => by fin_cases a <;> rfl
theorem zero2 : (![0, 0] : Fin 2 → Nat) = fun _ => 0 := funext fun a => by fin_cases a <;> rfl

/-- The five index maps over the grid: at point t every window is at edge block t, and at block 0 on its other axes. -/
theorem edge_block_index : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The value block of point t at (r, h, d) is the value array at edge 1024 t + r, head h, feature d. -/
theorem val_block_apply (c : Dev nD) (t : Fin cfg2.N) (y : S1024x12x64.Idx) (k : S131072x12x64.Idx)
    (hk0 : (k 0).val = 1024 * t.val + (y 0).val) (hk1 : (k 1).val = (y 1).val) (hk2 : (k 2).val = (y 2).val) :
    (iblk2 V c 0 t : Vec Ideal S1024x12x64 .f32) y = (V c main_v53 : S131072x12x64.Idx → Elt Ideal .f32) k := by
  obtain ⟨e0, e1, e2, -⟩ := edge_block_index t
  unfold iblk2
  rw [View.read_apply]
  show V c main_v53 _ = V c main_v53 _
  congr 1
  funext a
  apply Fin.ext
  match a with
  | ⟨0, _⟩ => show win2_0.index t (0 : Fin 3) * 1024 + 1 * (y 0).val = (k 0).val; rw [e0, hk0]; omega
  | ⟨1, _⟩ => show win2_0.index t (1 : Fin 3) * 12 + 1 * (y 1).val = (k 1).val; rw [e1, hk1]; omega
  | ⟨2, _⟩ => show win2_0.index t (2 : Fin 3) * 64 + 1 * (y 2).val = (k 2).val; rw [e2, hk2]; omega

/-- The relative-value block of point t at (r, 0, d) is the relative-value array at edge 1024 t + r, row 0, feature d. -/
theorem rel_block_apply (c : Dev nD) (t : Fin cfg2.N) (y : S1024x1x64.Idx) (k : S131072x1x64.Idx)
    (hk0 : (k 0).val = 1024 * t.val + (y 0).val) (hk2 : (k 2).val = (y 2).val) :
    (iblk2 V c 1 t : Vec Ideal S1024x1x64 .f32) y = (V c main_v61 : S131072x1x64.Idx → Elt Ideal .f32) k := by
  obtain ⟨-, -, -, e0, e1, e2, -⟩ := edge_block_index t
  unfold iblk2
  rw [View.read_apply]
  show V c main_v61 _ = V c main_v61 _
  congr 1
  funext a
  apply Fin.ext
  match a with
  | ⟨0, _⟩ => show win2_1.index t (0 : Fin 3) * 1024 + 1 * (y 0).val = (k 0).val; rw [e0, hk0]; omega
  | ⟨1, _⟩ =>
    show win2_1.index t (1 : Fin 3) * 1 + 1 * (y 1).val = (k 1).val
    have hy : (y 1).val < 1 := (y 1).isLt
    have hk : (k 1).val < 1 := (k 1).isLt
    rw [e1]; omega
  | ⟨2, _⟩ => show win2_1.index t (2 : Fin 3) * 64 + 1 * (y 2).val = (k 2).val; rw [e2, hk2]; omega

/-- The score block of point t at (r, h) is the score array at edge 1024 t + r, head h. -/
theorem score_block_apply (c : Dev nD) (t : Fin cfg2.N) (y : S1024x12.Idx) (k : S131072x12.Idx)
    (hk0 : (k 0).val = 1024 * t.val + (y 0).val) (hk1 : (k 1).val = (y 1).val) :
    (iblk2 V c 2 t : Vec Ideal S1024x12 .f32) y = (V c main_v36 : S131072x12.Idx → Elt Ideal .f32) k := by
  obtain ⟨-, -, -, -, -, -, e0, e1, -⟩ := edge_block_index t
  unfold iblk2
  rw [View.read_apply]
  show V c main_v36 _ = V c main_v36 _
  congr 1
  funext a
  apply Fin.ext
  match a with
  | ⟨0, _⟩ => show win2_2.index t (0 : Fin 2) * 1024 + 1 * (y 0).val = (k 0).val; rw [e0, hk0]; omega
  | ⟨1, _⟩ => show win2_2.index t (1 : Fin 2) * 12 + 1 * (y 1).val = (k 1).val; rw [e1, hk1]; omega

/-- The denominator block of point t at (r, h) is the denominator array at edge 1024 t + r, head h. -/
theorem den_block_apply (c : Dev nD) (t : Fin cfg2.N) (y : S1024x12.Idx) (k : S131072x12.Idx)
    (hk0 : (k 0).val = 1024 * t.val + (y 0).val) (hk1 : (k 1).val = (y 1).val) :
    (iblk2 V c 3 t : Vec Ideal S1024x12 .f32) y = (V c main_v46 : S131072x12.Idx → Elt Ideal .f32) k := by
  obtain ⟨-, -, -, -, -, -, -, -, e0, e1, -⟩ := edge_block_index t
  unfold iblk2
  rw [View.read_apply]
  show V c main_v46 _ = V c main_v46 _
  congr 1
  funext a
  apply Fin.ext
  match a with
  | ⟨0, _⟩ => show win2_3.index t (0 : Fin 2) * 1024 + 1 * (y 0).val = (k 0).val; rw [e0, hk0]; omega
  | ⟨1, _⟩ => show win2_3.index t (1 : Fin 2) * 12 + 1 * (y 1).val = (k 1).val; rw [e1, hk1]; omega

/-- The payload of the four blocks of point t at block index y is the weighted value at the array index i that sits
    under it: edge 1024 t + y 0, the same head and feature. -/
theorem weighted_block (c : Dev nD) (t : Fin cfg2.N) (y : S1024x12x64.Idx) (i : S131072x12x64.Idx)
    (h0 : (i 0).val = 1024 * t.val + (y 0).val) (h1 : (i 1).val = (y 1).val) (h2 : (i 2).val = (y 2).val) :
    k2_pay1 (iblk2 V c 0 t) (iblk2 V c 1 t) (iblk2 V c 2 t) (iblk2 V c 3 t) y
      = Spec.weighted (V c main_v53) (V c main_v61) (V c main_v36) (V c main_v46) i := by
  have hy : y = ix3 (y 0) (y 1) (y 2) := eq_ix3 y
  rw [hy]
  refine (pay_apply _ _ _ _ (y 0) (y 1) (y 2)).trans ?_
  unfold Spec.weighted Spec.weightedAt
  rw [val_block_apply V c t (ix3 (y 0) (y 1) (y 2)) (ix3 (i 0) (i 1) (i 2)) h0 h1 h2,
    rel_block_apply V c t (ix3 (y 0) (0 : Fin 1) (y 2)) (ix3 (i 0) (0 : Fin 1) (i 2)) h0 h2,
    score_block_apply V c t (ix2 (y 0) (y 1)) (ix2 (i 0) (i 1)) h0 h1,
    den_block_apply V c t (ix2 (y 0) (y 1)) (ix2 (i 0) (i 1)) h0 h1]

/-! ## From the blocks to the array -/

/-- What point t writes back is block t of the weighted values of the four arrays: an element of the output block sits
    in the array at block index times block size plus its coordinate inside the block. -/
theorem writeback_eq (c : Dev nD) (t : Fin cfg2.N) :
    (dat2 V c).flushed 4 t = ((cfg2.win 4).blk t).view.read (Elt Ideal)
      (Spec.weighted (V c main_v53) (V c main_v61) (V c main_v36) (V c main_v46)) := by
  show (cfg2.win 4).cut (grid2.coords t) ((dat2 V c).after 4 t) = _
  rw [after2_4]
  unfold out2_4
  rw [View.canon_unit_zero zero3]
  simp only [View.ld_unit_zero (S := S1024x12x64) zero3, View.ld_unit_zero (S := S1024x1x64) zero3, View.ld_unit_zero (S := S1024x12) zero2]
  obtain ⟨-, -, -, -, -, -, -, -, -, -, e0, e1, e2⟩ := edge_block_index t
  funext j
  rw [View.read_apply]
  refine weighted_block V c t _ _ ?_ ?_ ?_
  · show win2_4.index t (0 : Fin 3) * 1024 + 1 * (j 0).val = 1024 * t.val + (j 0).val
    rw [e0]; omega
  · show win2_4.index t (1 : Fin 3) * 12 + 1 * (j 1).val = (j 1).val
    rw [e1]; omega
  · show win2_4.index t (2 : Fin 3) * 64 + 1 * (j 2).val = (j 2).val
    rw [e2]; omega

/-- An index of the output array is in point t's block iff each coordinate is in the block's range on its axis. -/
theorem mem_edge_block (t : Fin cfg2.N) (i : S131072x12x64.Idx) :
    i ∈ ((cfg2.win 4).blk t).view.set ↔ ∀ a : Fin 3, win2_4.index t a * S1024x12x64.size a ≤ (i a).val ∧ (i a).val < win2_4.index t a * S1024x12x64.size a + S1024x12x64.size a := by
  show i ∈ ((View.whole main_v62).slice (win2_4.rect t)).set ↔ _
  rw [View.set_slice_whole, Rect.mem_set_unit]
  exact Iff.rfl

/-- Every entry of the output array is written back by some point: edge e by point e / 1024. -/
theorem edge_cover (i : S131072x12x64.Idx) :
    ∃ t : Fin cfg2.N, (cfg2.win 4).flush t = true ∧ i ∈ ((cfg2.win 4).blk t).view.set := by
  have hi0 : (i 0).val < 131072 := (i 0).isLt
  have hi1 : (i 1).val < 12 := (i 1).isLt
  have hi2 : (i 2).val < 64 := (i 2).isLt
  have hN : cfg2.N = 128 := N_2
  let t : Fin cfg2.N := ⟨(i 0).val / 1024, by rw [hN]; omega⟩
  obtain ⟨-, -, -, -, -, -, -, -, -, -, e0, e1, e2⟩ := edge_block_index t
  have ht : t.val = (i 0).val / 1024 := rfl
  refine ⟨t, flush2_4 t, ?_⟩
  rw [mem_edge_block]
  intro a
  match a with
  | ⟨0, _⟩ => show win2_4.index t (0 : Fin 3) * 1024 ≤ (i 0).val ∧ (i 0).val < win2_4.index t (0 : Fin 3) * 1024 + 1024; rw [e0, ht]; omega
  | ⟨1, _⟩ => show win2_4.index t (1 : Fin 3) * 12 ≤ (i 1).val ∧ (i 1).val < win2_4.index t (1 : Fin 3) * 12 + 12; rw [e1]; omega
  | ⟨2, _⟩ => show win2_4.index t (2 : Fin 3) * 64 ≤ (i 2).val ∧ (i 2).val < win2_4.index t (2 : Fin 3) * 64 + 64; rw [e2]; omega

end Weighted

/-- The weighting kernel's output array after the run is the weighted values of the four arrays it reads. -/
theorem final2 (c : Dev nD) :
    (dat2 V c).arrAt 4 cfg2.N = Spec.weighted (V c main_v53) (V c main_v61) (V c main_v36) (V c main_v46) :=
  (dat2 V c).arrAt_eq_of_cover 4 _ (fun t _ => Weighted.writeback_eq V c t) Weighted.edge_cover

end Cert.KernelIdeal.Fr

end
-- ==== Proof.KI.HostRead.lean ====
/-
  The kernel program's result array as one function of the argument arrays, over the extended reals.
  The fold of the buffers' contents through the program is read back stage by stage: a host operation's result is its
  function of its operands' contents; a kernel's output array is what its value lemma says of the arrays it reads; an
  array no later item writes is carried unchanged. At the end the result array holds the weighted values of the stages
  named in `KFinal`.
-/
import proofs.«108313_j29489245454921_1_alg».proof.Proof.KI.Run
import proofs.«108313_j29489245454921_1_alg».proof.Proof.KI.Val0
import proofs.«108313_j29489245454921_1_alg».proof.Proof.KI.Val1
import proofs.«108313_j29489245454921_1_alg».proof.Proof.KI.Val2
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The first host stretch: the projection kernel's three operands -/

/-- The flattened hidden states. -/
theorem V1_v0 (c : Dev nD) : V1 m ρ c main_v0 = KFinal.kX (m ((c : Thread nD τ).loc main_arg0)) := by
  show StableHlo.after hostOps0 (W0 m ρ c) (Proc.devRef .tc main_v0) = _
  after_results
  rfl

/-- The three transposed weight matrices side by side. -/
theorem V1_v4 (c : Dev nD) : V1 m ρ c main_v4 = KFinal.kW (m ((c : Thread nD τ).loc main_arg1)) (m ((c : Thread nD τ).loc main_arg3)) (m ((c : Thread nD τ).loc main_arg5)) := by
  show StableHlo.after hostOps0 (W0 m ρ c) (Proc.devRef .tc main_v4) = _
  after_results
  rfl

/-- The three biases end to end, as one row. -/
theorem V1_v6 (c : Dev nD) : V1 m ρ c main_v6 = KFinal.kB (m ((c : Thread nD τ).loc main_arg2)) (m ((c : Thread nD τ).loc main_arg4)) (m ((c : Thread nD τ).loc main_arg6)) := by
  show StableHlo.after hostOps0 (W0 m ρ c) (Proc.devRef .tc main_v6) = _
  after_results
  rfl

/-! ## The projection kernel's output -/

/-- Region 0 leaves the projection of the three operands in its output array. -/
theorem W2_v7 (c : Dev nD) : W2 m ρ c (Proc.devRef .tc main_v7) = KFinal.kQKV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 3).trans ((final0 (V1 m ρ) c).trans ?_)
  rw [V1_v0 m ρ c, V1_v4 m ρ c, V1_v6 m ρ c]
  rfl

/-! ## The second host stretch: the score kernel's three operands -/

/-- The argument arrays read after the projection are as launched. -/
theorem W2_arg7 (c : Dev nD) : W2 m ρ c (Proc.devRef .tc main_arg7) = (m ((c : Thread nD τ).loc main_arg7)) :=
  (W2_of_ne m ρ c main_arg7 (by decide)).trans (StableHlo.after_of_writes_sub hostOps0 _ hostOps0_writes (by decide))
theorem W2_arg8 (c : Dev nD) : W2 m ρ c (Proc.devRef .tc main_arg8) = (m ((c : Thread nD τ).loc main_arg8)) :=
  (W2_of_ne m ρ c main_arg8 (by decide)).trans (StableHlo.after_of_writes_sub hostOps0 _ hostOps0_writes (by decide))
theorem W2_arg9 (c : Dev nD) : W2 m ρ c (Proc.devRef .tc main_arg9) = (m ((c : Thread nD τ).loc main_arg9)) :=
  (W2_of_ne m ρ c main_arg9 (by decide)).trans (StableHlo.after_of_writes_sub hostOps0 _ hostOps0_writes (by decide))
theorem W2_arg10 (c : Dev nD) : W2 m ρ c (Proc.devRef .tc main_arg10) = (m ((c : Thread nD τ).loc main_arg10)) :=
  (W2_of_ne m ρ c main_arg10 (by decide)).trans (StableHlo.after_of_writes_sub hostOps0 _ hostOps0_writes (by decide))
theorem W2_arg12 (c : Dev nD) : W2 m ρ c (Proc.devRef .tc main_arg12) = (m ((c : Thread nD τ).loc main_arg12)) :=
  (W2_of_ne m ρ c main_arg12 (by decide)).trans (StableHlo.after_of_writes_sub hostOps0 _ hostOps0_writes (by decide))

/-- The queries of the target nodes, by edge. -/
theorem V3_v20 (c : Dev nD) : V3 m ρ c main_v20 = KFinal.kQg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) := by
  show StableHlo.after hostOps1 (W2 m ρ c) (Proc.devRef .tc main_v20) = _
  after_results_simp
  rw [W2_v7 m ρ c, W2_arg10 m ρ c]
  rfl

/-- The keys of the source nodes, by edge. -/
theorem V3_v27 (c : Dev nD) : V3 m ρ c main_v27 = KFinal.kKg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := by
  show StableHlo.after hostOps1 (W2 m ρ c) (Proc.devRef .tc main_v27) = _
  after_results_simp
  rw [W2_v7 m ρ c, W2_arg9 m ρ c]
  rfl

/-- The relative-key rows by edge, with a unit head axis. -/
theorem V3_v35 (c : Dev nD) : V3 m ρ c main_v35 = KFinal.kRelK (m ((c : Thread nD τ).loc main_arg7)) (m ((c : Thread nD τ).loc main_arg12)) := by
  show StableHlo.after hostOps1 (W2 m ρ c) (Proc.devRef .tc main_v35) = _
  after_results_simp
  rw [W2_arg7 m ρ c, W2_arg12 m ρ c]
  rfl

/-- The values, split into heads (read by the third stretch). -/
theorem V3_v13 (c : Dev nD) : V3 m ρ c main_v13 = KFinal.kV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v13) = _
  after_results_simp
  rw [W2_v7 m ρ c]
  rfl

/-! ## The score kernel's output -/

/-- Region 1 leaves the scores of its three operands in its output array. -/
theorem W4_v36 (c : Dev nD) : W4 m ρ c (Proc.devRef .tc main_v36) = KFinal.kSC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg12)) := by
  refine (W4_arr m ρ c 3).trans ((final1 (V3 m ρ) c).trans ?_)
  rw [V3_v20 m ρ c, V3_v27 m ρ c, V3_v35 m ρ c]
  rfl

/-! ## The third host stretch: the weighting kernel's four operands -/

/-- What the third stretch reads of the earlier items: the argument arrays as launched, the values as the second
    stretch left them. -/
theorem W4_arg8 (c : Dev nD) : W4 m ρ c (Proc.devRef .tc main_arg8) = (m ((c : Thread nD τ).loc main_arg8)) :=
  (W4_of_ne m ρ c main_arg8 (by decide)).trans
    ((StableHlo.after_of_writes_sub hostOps1 _ hostOps1_writes (by decide)).trans (W2_arg8 m ρ c))
theorem W4_arg9 (c : Dev nD) : W4 m ρ c (Proc.devRef .tc main_arg9) = (m ((c : Thread nD τ).loc main_arg9)) :=
  (W4_of_ne m ρ c main_arg9 (by decide)).trans
    ((StableHlo.after_of_writes_sub hostOps1 _ hostOps1_writes (by decide)).trans (W2_arg9 m ρ c))
theorem W4_arg10 (c : Dev nD) : W4 m ρ c (Proc.devRef .tc main_arg10) = (m ((c : Thread nD τ).loc main_arg10)) :=
  (W4_of_ne m ρ c main_arg10 (by decide)).trans
    ((StableHlo.after_of_writes_sub hostOps1 _ hostOps1_writes (by decide)).trans (W2_arg10 m ρ c))
theorem W4_arg12 (c : Dev nD) : W4 m ρ c (Proc.devRef .tc main_arg12) = (m ((c : Thread nD τ).loc main_arg12)) :=
  (W4_of_ne m ρ c main_arg12 (by decide)).trans
    ((StableHlo.after_of_writes_sub hostOps1 _ hostOps1_writes (by decide)).trans (W2_arg12 m ρ c))

theorem W4_v13 (c : Dev nD) : W4 m ρ c (Proc.devRef .tc main_v13) = KFinal.kV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v13 (by decide)).trans (V3_v13 m ρ c)

/-- The values of the source nodes, by edge. -/
theorem V5_v53 (c : Dev nD) : V5 m ρ c main_v53 = KFinal.kVg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := by
  show StableHlo.after hostOps2 (W4 m ρ c) (Proc.devRef .tc main_v53) = _
  after_results_simp
  rw [W4_v13 m ρ c, W4_arg9 m ρ c]
  rfl

/-- The relative-value rows by edge, with a unit head axis. -/
theorem V5_v61 (c : Dev nD) : V5 m ρ c main_v61 = KFinal.kRelV (m ((c : Thread nD τ).loc main_arg8)) (m ((c : Thread nD τ).loc main_arg12)) := by
  show StableHlo.after hostOps2 (W4 m ρ c) (Proc.devRef .tc main_v61) = _
  after_results_simp
  rw [W4_arg8 m ρ c, W4_arg12 m ρ c]
  rfl

/-- The scores: no operation of the third stretch writes them. -/
theorem V5_v36 (c : Dev nD) : V5 m ρ c main_v36 = KFinal.kSC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg12)) :=
  (StableHlo.after_of_writes_sub hostOps2 _ hostOps2_writes (by decide)).trans (W4_v36 m ρ c)

/-- The scores summed by target node, gathered back by edge. -/
theorem V5_v46 (c : Dev nD) : V5 m ρ c main_v46 = KFinal.kDen (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg12)) := by
  show StableHlo.after hostOps2 (W4 m ρ c) (Proc.devRef .tc main_v46) = _
  after_results_simp
  rw [W4_v36 m ρ c, W4_arg10 m ρ c]
  rfl

/-! ## The weighting kernel's output: the program's result -/

/-- After the run the result array holds the kernel program's function of the argument arrays. -/
theorem kernel_value (c : Dev nD) :
    W6 m ρ c (Proc.devRef .tc main_v62) = KFinal.kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) := by
  refine (W6_arr m ρ c 4).trans ((final2 (V5 m ρ) c).trans ?_)
  rw [V5_v53 m ρ c, V5_v61 m ρ c, V5_v36 m ρ c, V5_v46 m ρ c]
  rfl

end Cert.KernelIdeal.Fr

end
-- ==== Proof.RFinal.lean ====
/-
  The reference program's result as one function of the argument arrays, over the extended reals, stage by stage as the
  reference computes it: a projection with its bias split into heads; rows gathered by edge; the scores (the exponential
  of the feature sum divided by the square root of 64); the weighted values (value plus relative value, times score over
  the gathered sum of the scores by target node).
-/
import proofs.«108313_j29489245454921_1_alg».proof.Proof.Gen.ReferenceIdeal.Run
import Idealize.ShloMosaic.PureOps.Ideal

noncomputable section

namespace Cert.ReferenceIdeal.RFinal

open Cert.ReferenceIdeal Cert.ReferenceIdeal.Gen Idealize.ShloMosaic Idealize.ShloMosaic.TcCoe Idealize.SL.Sem

/-- An index array as the gathers take it: an entry below zero has `n` added, then a trailing unit axis. -/
def rIdx (n : BitVec 32) (a : IVec S131072 32) : IVec S131072x1 32 :=
  broadcastInDim S131072x1 ![0] bcast_S131072_S131072x1_0
    (select (cmpi .slt a (broadcastInDim S131072 ![] bcast_S_S131072 (constantI S_ 32 0#32)))
      (addi a (broadcastInDim S131072 ![] bcast_S_S131072 (constantI S_ 32 n))) a)

/-- One projection with its bias, split into heads. -/
def rHead (a0 : FVec Ideal S4x512x768 .f32) (w : FVec Ideal S768x768 .f32)
    (b : FVec Ideal S768 .f32) : FVec Ideal S2048x12x64 .f32 :=
  shapeCast S2048x12x64 (addf (Host.dotGeneral (F := Ideal) dot_S2048x768_S768x768_S2048x768_1_0_0_1_n_n none
      (shapeCast S2048x768 a0 shapeCasts_S4x512x768_S2048x768) (transpose S768x768 [1, 0] w transposes_S768x768_S768x768_1_0))
    (broadcastInDim S2048x768 ![0, 1] bcast_S1x768_S2048x768_0_1 (broadcastInDim S1x768 ![1] bcast_S768_S1x768_1 b))) shapeCasts_S2048x768_S2048x12x64

/-- The scores of gathered queries, gathered keys and gathered relative-key rows. -/
def rSC (qg kg : FVec Ideal S131072x12x64 .f32) (relg : FVec Ideal S131072x64 .f32) :
    FVec Ideal S131072x12 .f32 :=
  Host.exp (Host.divf (Host.reduceAdd (F := Ideal) (mulf qg (addf kg
      (broadcastInDim S131072x12x64 ![0, 1, 2] bcast_S131072x1x64_S131072x12x64_0_1_2 (broadcastInDim S131072x1x64 ![0, 2] bcast_S131072x64_S131072x1x64_0_2 relg))))
      (constant (F := Ideal) S_ .f32 0x00000000#32) reducesTo_S131072x12x64_S131072x12_d2 h_S_)
    (broadcastInDim S131072x12 ![] bcast_S_S131072x12 (Host.sqrt (constant (F := Ideal) S_ .f32 0x42800000#32))))

/-- The weighted values of gathered values, gathered relative-value rows, scores and gathered denominators. -/
def rOut (vg : FVec Ideal S131072x12x64 .f32) (relg : FVec Ideal S131072x64 .f32)
    (s den : FVec Ideal S131072x12 .f32) : FVec Ideal S131072x12x64 .f32 :=
  mulf (addf vg (broadcastInDim S131072x12x64 ![0, 1, 2] bcast_S131072x1x64_S131072x12x64_0_1_2 (broadcastInDim S131072x1x64 ![0, 2] bcast_S131072x64_S131072x1x64_0_2 relg)))
    (broadcastInDim S131072x12x64 ![0, 1, 2] bcast_S131072x12x1_S131072x12x64_0_1_2 (broadcastInDim S131072x12x1 ![0, 1] bcast_S131072x12_S131072x12x1_0_1 (Host.divf (F := Ideal) s den)))

section
variable (a0 : FVec Ideal S4x512x768 .f32)
  (a1 : FVec Ideal S768x768 .f32) (a2 : FVec Ideal S768 .f32)
  (a3 : FVec Ideal S768x768 .f32) (a4 : FVec Ideal S768 .f32)
  (a5 : FVec Ideal S768x768 .f32) (a6 : FVec Ideal S768 .f32)
  (a7 a8 : FVec Ideal S16x64 .f32) (a9 a10 a12 : IVec S131072 32)

/-- The reference's scores as a function of the arguments. -/
def rScores : FVec Ideal S131072x12 .f32 :=
  rSC (Host.gather gather_S2048x12x64_S131072x1_S131072x12x64_12_0_n_n_0_1_11264 (rHead a0 a1 a2) (rIdx 2048#32 a10))
    (Host.gather gather_S2048x12x64_S131072x1_S131072x12x64_12_0_n_n_0_1_11264 (rHead a0 a3 a4) (rIdx 2048#32 a9))
    (Host.gather gather_S16x64_S131072x1_S131072x64_1_0_n_n_0_1_164 a7 (rIdx 16#32 a12))

/-- The reference's result as a function of the arguments. -/
def rFinal : FVec Ideal S131072x12x64 .f32 :=
  rOut (Host.gather gather_S2048x12x64_S131072x1_S131072x12x64_12_0_n_n_0_1_11264 (rHead a0 a5 a6) (rIdx 2048#32 a9))
    (Host.gather gather_S16x64_S131072x1_S131072x64_1_0_n_n_0_1_164 a8 (rIdx 16#32 a12))
    (rScores a0 a1 a2 a3 a4 a7 a9 a10 a12)
    (Host.gather gather_S2048x12_S131072x1_S131072x12_1_0_n_n_0_1_112
      (Host.scatterAdd (F := Ideal) scatter_S2048x12_S131072x1_S131072x12_1_0_0_1
        (broadcastInDim S2048x12 ![] bcast_S_S2048x12 (constant (F := Ideal) S_ .f32 0x00000000#32))
        (broadcastInDim S131072x1 ![0] bcast_S131072_S131072x1_0 a10) (rScores a0 a1 a2 a3 a4 a7 a9 a10 a12))
      (rIdx 2048#32 a10))
end

/-- The generated run's result term is this function of the argument arrays. -/
theorem res_eq (m : (ℓ : Loc nD τ sig) → Buf (Elt Ideal) ℓ) (c : Dev nD) :
    Cert.ReferenceIdeal.Value.res_main_v79 (F := Ideal) m c
      = rFinal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) := by
  unfold Cert.ReferenceIdeal.Value.res_main_v79 rFinal rScores rOut rSC rHead rIdx
  rfl

end Cert.ReferenceIdeal.RFinal

end
-- ==== Proof.BridgeProj.lean ====
/-
  A column third of the fused projection is the reference's own projection, over the extended reals.
  Entry (r, j) of the fused projection is the sum over k of x[r, k] times column j of the three transposed weight matrices
  laid side by side, plus entry j of the three biases laid end to end. For j in the first third that column is column j
  of the transposed query weights and that bias entry is the query bias at j, and likewise for the second and third thirds
  with the key and value weights at j - 768 and j - 1536: the sums agree term by term, and splitting into heads is the
  same reshaping on both sides.
-/
import proofs.«108313_j29489245454921_1_alg».proof.Proof.KFinal
import proofs.«108313_j29489245454921_1_alg».proof.Proof.RFinal
import proofs.«108313_j29489245454921_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal Cert.ReferenceIdeal.Gen

/-- The reference's projection with its bias, at row `r`, column `j`: the sum over `k` of the flattened hidden states
    at `(r, k)` times the transposed weights at `(k, j)`, plus the bias at `j`. -/
theorem rProj_apply (a0 : FVec Ideal S4x512x768 .f32) (w : FVec Ideal S768x768 .f32) (b : FVec Ideal S768 .f32)
    (r : Fin 2048) (j : Fin 768) :
    addf (Host.dotGeneral (F := Ideal) dot_S2048x768_S768x768_S2048x768_1_0_0_1_n_n none
        (shapeCast S2048x768 a0 shapeCasts_S4x512x768_S2048x768) (transpose S768x768 [1, 0] w transposes_S768x768_S768x768_1_0))
      (broadcastInDim S2048x768 ![0, 1] bcast_S1x768_S2048x768_0_1 (broadcastInDim S1x768 ![1] bcast_S768_S1x768_1 b)) (ix2 r j)
      = (∑ k : Fin 768, shapeCast S2048x768 a0 shapeCasts_S4x512x768_S2048x768 (ix2 r k)
          * transpose S768x768 [1, 0] w transposes_S768x768_S768x768_1_0 (ix2 k j)) + b (ix1 j) := by
  show Read.val_main_v5 (F := Ideal) a0 w b (ix2 r j) = _
  rw [Read.val_main_v5_apply, Read.val_main_v2_apply, Read.val_main_v4_apply, Read.val_main_v3_apply]
  show (∑ k : Fin 768, _) + _ = _
  congr 1
  · refine Finset.sum_congr rfl fun k _ => ?_
    have el : Read.lidx_main_v2 (ix2 r j) k = ix2 r k := funext fun a => match a with
      | ⟨0, _⟩ => rfl
      | ⟨1, _⟩ => rfl
    have er : Read.ridx_main_v2 (ix2 r j) k = ix2 k j := funext fun a => match a with
      | ⟨0, _⟩ => rfl
      | ⟨1, _⟩ => rfl
    rw [el, er]
    rfl
  · exact congrArg b (funext fun a => match a with
      | ⟨0, _⟩ => rfl)

/-- A column slice of the projection at row `r`, column `j`: the projection at column `off + j`. -/
theorem kProj_apply (x : FVec Ideal Cert.KernelIdeal.S2048x768 .f32) (W : FVec Ideal Cert.KernelIdeal.S768x2304 .f32)
    (B : FVec Ideal Cert.KernelIdeal.S1x2304 .f32) (off : Nat)
    (h : Cert.KernelIdeal.S2048x2304.Slices ![0, off] Cert.KernelIdeal.S2048x768) (r : Fin 2048) (j : Fin 768) (hj : off + j.val < 2304) :
    extractStridedSlice Cert.KernelIdeal.S2048x768 ![0, off] (Cert.KernelIdeal.Spec.proj x W B) h (ix2 r j)
      = (∑ k : Fin 768, x (ix2 r k) * W (ix2 k (⟨off + j.val, hj⟩ : Fin 2304))) + B (ix2 (0 : Fin 1) (⟨off + j.val, hj⟩ : Fin 2304)) := by
  refine (extractStridedSlice_apply ![0, off] _ h (ix2 r j) (ix2 r (⟨off + j.val, hj⟩ : Fin 2304)) (fun a => match a with
    | ⟨0, _⟩ => by show r.val = 0 + r.val; omega
    | ⟨1, _⟩ => rfl)).trans ?_
  rfl

/-- Three square matrices side by side, read at column `768 n + j`: the `n`-th matrix at column `j`. -/
theorem kW_apply (w : Fin 3 → FVec Ideal Cert.KernelIdeal.S768x768 .f32)
    (h : Shape.Concatenates [Cert.KernelIdeal.S768x768, Cert.KernelIdeal.S768x768, Cert.KernelIdeal.S768x768] Cert.KernelIdeal.S768x2304 1)
    (off : Nat) (n : Fin 3) (hoff : off = 768 * n.val) (k j : Fin 768) (hj : off + j.val < 2304) :
    concatenate Cert.KernelIdeal.S768x2304 1 [⟨Cert.KernelIdeal.S768x768, w 0⟩, ⟨Cert.KernelIdeal.S768x768, w 1⟩, ⟨Cert.KernelIdeal.S768x768, w 2⟩] h
      (ix2 k (⟨off + j.val, hj⟩ : Fin 2304)) = w n (ix2 k j) := by
  subst hoff
  have hi : ∀ b : Fin Cert.KernelIdeal.S768x768.rank, b.cast (rfl : Cert.KernelIdeal.S768x768.rank = Cert.KernelIdeal.S768x2304.rank) ≠ (1 : Fin 2) →
      ((ix2 k j) b).val = ((ix2 k (⟨768 * n.val + j.val, hj⟩ : Fin 2304)) (b.cast rfl)).val := fun b hb => by
    match b with
    | ⟨0, _⟩ => rfl
    | ⟨1, _⟩ => exact absurd rfl hb
  match n with
  | ⟨0, _⟩ =>
    exact concatenate_apply_piece 1 [⟨Cert.KernelIdeal.S768x768, w 0⟩, ⟨Cert.KernelIdeal.S768x768, w 1⟩, ⟨Cert.KernelIdeal.S768x768, w 2⟩] h _ 0
      (show (0 : Nat) < 3 by decide) Cert.KernelIdeal.S768x768 (w 0) rfl rfl 0 rfl (ix2 k j) hi rfl
  | ⟨1, _⟩ =>
    exact concatenate_apply_piece 1 [⟨Cert.KernelIdeal.S768x768, w 0⟩, ⟨Cert.KernelIdeal.S768x768, w 1⟩, ⟨Cert.KernelIdeal.S768x768, w 2⟩] h _ 1
      (show (1 : Nat) < 3 by decide) Cert.KernelIdeal.S768x768 (w 1) rfl rfl 768 rfl (ix2 k j) hi rfl
  | ⟨2, _⟩ =>
    exact concatenate_apply_piece 1 [⟨Cert.KernelIdeal.S768x768, w 0⟩, ⟨Cert.KernelIdeal.S768x768, w 1⟩, ⟨Cert.KernelIdeal.S768x768, w 2⟩] h _ 2
      (show (2 : Nat) < 3 by decide) Cert.KernelIdeal.S768x768 (w 2) rfl rfl 1536 rfl (ix2 k j) hi rfl

/-- Three vectors end to end, as one row, read at column `768 n + j`: the `n`-th vector at `j`. -/
theorem kB_apply (b : Fin 3 → FVec Ideal Cert.KernelIdeal.S768 .f32)
    (h : Shape.Concatenates [Cert.KernelIdeal.S768, Cert.KernelIdeal.S768, Cert.KernelIdeal.S768] Cert.KernelIdeal.S2304 0) (hc : Cert.KernelIdeal.S2304.ShapeCasts Cert.KernelIdeal.S1x2304)
    (off : Nat) (n : Fin 3) (hoff : off = 768 * n.val) (j : Fin 768) (hj : off + j.val < 2304) :
    shapeCast Cert.KernelIdeal.S1x2304 (concatenate Cert.KernelIdeal.S2304 0 [⟨Cert.KernelIdeal.S768, b 0⟩, ⟨Cert.KernelIdeal.S768, b 1⟩, ⟨Cert.KernelIdeal.S768, b 2⟩] h) hc
      (ix2 (0 : Fin 1) (⟨off + j.val, hj⟩ : Fin 2304)) = b n (ix1 j) := by
  subst hoff
  refine (shapeCast_apply _ hc (ix2 (0 : Fin 1) (⟨768 * n.val + j.val, hj⟩ : Fin 2304)) (ix1 (⟨768 * n.val + j.val, hj⟩ : Fin 2304)) (by
    rewrite [Shape.rowMajor_val_one, Shape.rowMajor_val_two]
    show 768 * n.val + j.val = 0 * 2304 + (768 * n.val + j.val)
    omega)).trans ?_
  have hi : ∀ c : Fin Cert.KernelIdeal.S768.rank, c.cast (rfl : Cert.KernelIdeal.S768.rank = Cert.KernelIdeal.S2304.rank) ≠ (0 : Fin 1) →
      ((ix1 j) c).val = ((ix1 (⟨768 * n.val + j.val, hj⟩ : Fin 2304)) (c.cast rfl)).val := fun c hc => by
    match c with
    | ⟨0, _⟩ => exact absurd rfl hc
  match n with
  | ⟨0, _⟩ =>
    exact concatenate_apply_piece 0 [⟨Cert.KernelIdeal.S768, b 0⟩, ⟨Cert.KernelIdeal.S768, b 1⟩, ⟨Cert.KernelIdeal.S768, b 2⟩] h _ 0
      (show (0 : Nat) < 3 by decide) Cert.KernelIdeal.S768 (b 0) rfl rfl 0 rfl (ix1 j) hi rfl
  | ⟨1, _⟩ =>
    exact concatenate_apply_piece 0 [⟨Cert.KernelIdeal.S768, b 0⟩, ⟨Cert.KernelIdeal.S768, b 1⟩, ⟨Cert.KernelIdeal.S768, b 2⟩] h _ 1
      (show (1 : Nat) < 3 by decide) Cert.KernelIdeal.S768 (b 1) rfl rfl 768 rfl (ix1 j) hi rfl
  | ⟨2, _⟩ =>
    exact concatenate_apply_piece 0 [⟨Cert.KernelIdeal.S768, b 0⟩, ⟨Cert.KernelIdeal.S768, b 1⟩, ⟨Cert.KernelIdeal.S768, b 2⟩] h _ 2
      (show (2 : Nat) < 3 by decide) Cert.KernelIdeal.S768 (b 2) rfl rfl 1536 rfl (ix1 j) hi rfl

/-- The `n`-th column third of the fused projection of three weight matrices and three biases, split into heads, is
    the reference's projection with the `n`-th weights and bias: entry by entry the two sums have the same terms and
    the same bias is added. -/
theorem third_eq (a0 : FVec Ideal S4x512x768 .f32) (w : Fin 3 → FVec Ideal S768x768 .f32) (b : Fin 3 → FVec Ideal S768 .f32)
    (off : Nat) (n : Fin 3) (hoff : off = 768 * n.val) (h : Cert.KernelIdeal.S2048x2304.Slices ![0, off] Cert.KernelIdeal.S2048x768) :
    shapeCast Cert.KernelIdeal.S2048x12x64 (extractStridedSlice Cert.KernelIdeal.S2048x768 ![0, off]
      (Cert.KernelIdeal.Spec.proj (Cert.KernelIdeal.KFinal.kX a0)
        (concatenate Cert.KernelIdeal.S768x2304 1 [⟨Cert.KernelIdeal.S768x768, transpose Cert.KernelIdeal.S768x768 [1, 0] (w 0) Cert.KernelIdeal.Gen.transposes_S768x768_S768x768_1_0⟩,
          ⟨Cert.KernelIdeal.S768x768, transpose Cert.KernelIdeal.S768x768 [1, 0] (w 1) Cert.KernelIdeal.Gen.transposes_S768x768_S768x768_1_0⟩,
          ⟨Cert.KernelIdeal.S768x768, transpose Cert.KernelIdeal.S768x768 [1, 0] (w 2) Cert.KernelIdeal.Gen.transposes_S768x768_S768x768_1_0⟩]
          Cert.KernelIdeal.Gen.concatenates_S768x768_S768x768_S768x768_S768x2304_d1)
        (shapeCast Cert.KernelIdeal.S1x2304 (concatenate Cert.KernelIdeal.S2304 0 [⟨Cert.KernelIdeal.S768, b 0⟩, ⟨Cert.KernelIdeal.S768, b 1⟩, ⟨Cert.KernelIdeal.S768, b 2⟩]
          Cert.KernelIdeal.Gen.concatenates_S768_S768_S768_S2304_d0) Cert.KernelIdeal.Gen.shapeCasts_S2304_S1x2304)) h)
      Cert.KernelIdeal.Gen.shapeCasts_S2048x768_S2048x12x64
    = Cert.ReferenceIdeal.RFinal.rHead a0 (w n) (b n) := by
  unfold Cert.ReferenceIdeal.RFinal.rHead
  refine congrArg (fun v => shapeCast S2048x12x64 v shapeCasts_S2048x768_S2048x12x64) ?_
  funext i
  obtain ⟨r, j, rfl⟩ : ∃ (r : Fin 2048) (j : Fin 768), i = ix2 r j := ⟨i 0, i 1, eq_ix2 i⟩
  have hj : off + j.val < 2304 := by have := n.isLt; have := j.isLt; omega
  rw [kProj_apply _ _ _ off h r j hj]
  refine Eq.trans ?_ (rProj_apply a0 (w n) (b n) r j).symm
  congr 1
  · refine Finset.sum_congr rfl fun k _ => ?_
    rw [kW_apply (fun m => transpose Cert.KernelIdeal.S768x768 [1, 0] (w m) Cert.KernelIdeal.Gen.transposes_S768x768_S768x768_1_0) _ off n hoff k j hj]
    rfl
  · exact kB_apply b _ _ off n hoff j hj

section
variable (a0 : FVec Ideal S4x512x768 .f32)
  (a1 : FVec Ideal S768x768 .f32) (a2 : FVec Ideal S768 .f32)
  (a3 : FVec Ideal S768x768 .f32) (a4 : FVec Ideal S768 .f32)
  (a5 : FVec Ideal S768x768 .f32) (a6 : FVec Ideal S768 .f32)
  (a7 a8 : FVec Ideal S16x64 .f32) (a9 a10 a12 : IVec S131072 32)

/-- The first column third of the fused projection, split into heads, is the reference's query projection. -/
theorem kQ_eq : Cert.KernelIdeal.KFinal.kQ a0 a1 a2 a3 a4 a5 a6 = Cert.ReferenceIdeal.RFinal.rHead a0 a1 a2 := by
  unfold Cert.KernelIdeal.KFinal.kQ Cert.KernelIdeal.KFinal.kQKV Cert.KernelIdeal.KFinal.kW Cert.KernelIdeal.KFinal.kB
  exact third_eq a0 ![a1, a3, a5] ![a2, a4, a6] 0 0 rfl _
/-- The second column third is the reference's key projection. -/
theorem kK_eq : Cert.KernelIdeal.KFinal.kK a0 a1 a2 a3 a4 a5 a6 = Cert.ReferenceIdeal.RFinal.rHead a0 a3 a4 := by
  unfold Cert.KernelIdeal.KFinal.kK Cert.KernelIdeal.KFinal.kQKV Cert.KernelIdeal.KFinal.kW Cert.KernelIdeal.KFinal.kB
  exact third_eq a0 ![a1, a3, a5] ![a2, a4, a6] 768 1 rfl _
/-- The third column third is the reference's value projection. -/
theorem kV_eq : Cert.KernelIdeal.KFinal.kV a0 a1 a2 a3 a4 a5 a6 = Cert.ReferenceIdeal.RFinal.rHead a0 a5 a6 := by
  unfold Cert.KernelIdeal.KFinal.kV Cert.KernelIdeal.KFinal.kQKV Cert.KernelIdeal.KFinal.kW Cert.KernelIdeal.KFinal.kB
  exact third_eq a0 ![a1, a3, a5] ![a2, a4, a6] 1536 2 rfl _
end

end Cert.Bridge

end
-- ==== Proof.BridgeScore.lean ====
/-
  The kernel's scores are the reference's, over the extended reals.
  Kernel: exp ((sum over d of q[e, h, d] * (k[e, h, d] + rel[e, 0, d])) * (1/8)), the relative-key rows carrying a unit head
  axis. Reference: exp ((0 + sum over d of q[e, h, d] * (k[e, h, d] + rel[e, d])) / sqrt 64), the rows repeated over the heads.
  The square root of 64 is 8, and dividing an extended real by the real 8 is multiplying it by the real 1/8, which is what the
  word 0x3E000000 denotes.
-/
import proofs.«108313_j29489245454921_1_alg».proof.Proof.KFinal
import proofs.«108313_j29489245454921_1_alg».proof.Proof.RFinal
import proofs.«108313_j29489245454921_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal Cert.ReferenceIdeal.Gen

/-- The word 0x42800000 denotes the real 64. -/
theorem score_ofBits_64 : Ideal.ofBits .f32 0x42800000#32 = ((64 : ℝ) : EReal) := by
  simp [Ideal.ofBits, Ideal.ieee, -EReal.coe_mul]; norm_num

/-- The word 0x3E000000 denotes the real 1/8. -/
theorem score_ofBits_eighth : Ideal.ofBits .f32 0x3E000000#32 = ((1 / 8 : ℝ) : EReal) := by
  simp [Ideal.ofBits, Ideal.ieee, -EReal.coe_mul]; norm_num

/-- The square root of 64 is 8. -/
theorem score_sqrt_64 : Ideal.sqrt ((64 : ℝ) : EReal) = ((8 : ℝ) : EReal) := by
  rw [Ideal.sqrt_coe, if_neg (by norm_num)]
  rw [show (64 : ℝ) = 8 ^ 2 by norm_num, Real.sqrt_sq (by norm_num)]

/-- The relative-key rows given a unit head axis, read at (e, 0, d), are the rows at (e, d). -/
theorem score_relCast_apply (relg : FVec Ideal S131072x64 .f32) (e : Fin 131072) (d : Fin 64) :
    shapeCast Cert.KernelIdeal.S131072x1x64 relg Cert.KernelIdeal.Gen.shapeCasts_S131072x64_S131072x1x64 (ix3 e (0 : Fin 1) d)
      = relg (ix2 e d) :=
  shapeCast_apply relg _ _ _ (by
    rw [Shape.rowMajor_val_two, Shape.rowMajor_val_three]
    show e.val * 64 + d.val = (e.val * 1 + 0) * 64 + d.val
    omega)

/-- The relative-key rows repeated over the heads, read at (e, h, d), are the rows at (e, d). -/
theorem score_relRep_apply (relg : FVec Ideal S131072x64 .f32) (e : Fin 131072) (h : Fin 12) (d : Fin 64) :
    broadcastInDim S131072x12x64 ![0, 1, 2] bcast_S131072x1x64_S131072x12x64_0_1_2
        (broadcastInDim S131072x1x64 ![0, 2] bcast_S131072x64_S131072x1x64_0_2 relg) (ix3 e h d)
      = relg (ix2 e d) := by
  rw [broadcastInDim_apply _ bcast_S131072x1x64_S131072x12x64_0_1_2 _ (ix3 e h d) (ix3 e (0 : Fin 1) d) (fun a => match a with
    | ⟨0, _⟩ => by show e.val = if (131072 : Nat) = 1 then 0 else e.val; rw [if_neg (by decide)]
    | ⟨1, _⟩ => by show 0 = if (1 : Nat) = 1 then 0 else h.val; rw [if_pos rfl]
    | ⟨2, _⟩ => by show d.val = if (64 : Nat) = 1 then 0 else d.val; rw [if_neg (by decide)])]
  exact broadcastInDim_apply _ bcast_S131072x64_S131072x1x64_0_2 relg (ix3 e (0 : Fin 1) d) (ix2 e d) (fun a => match a with
    | ⟨0, _⟩ => by show e.val = if (131072 : Nat) = 1 then 0 else e.val; rw [if_neg (by decide)]
    | ⟨1, _⟩ => by show d.val = if (64 : Nat) = 1 then 0 else d.val; rw [if_neg (by decide)])

/-- The reference's feature sum at (e, h): the initial value is 0, so it is the sum over d alone. -/
theorem score_sum_apply (y : FVec Ideal S131072x12x64 .f32) (e : Fin 131072) (h : Fin 12) :
    Host.reduceAdd (F := Ideal) y (constant (F := Ideal) S_ .f32 0x00000000#32) reducesTo_S131072x12x64_S131072x12_d2 h_S_ (ix2 e h)
      = ∑ d : Fin 64, y (ix3 e h d) := by
  simp only [Host.reduceAdd, Ideal.hostReduceAdd_def]
  rw [Ideal.hostReduceAdd_single reducesTo_S131072x12x64_S131072x12_d2 (by decide)]
  rw [constant_apply, Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The reference's divisor at every (e, h) is the square root of 64, the real 8. -/
theorem score_root_apply (e : Fin 131072) (h : Fin 12) :
    broadcastInDim S131072x12 ![] bcast_S_S131072x12 (Host.sqrt (constant (F := Ideal) S_ .f32 0x42800000#32)) (ix2 e h)
      = ((8 : ℝ) : EReal) := by
  rw [broadcastInDim_apply _ bcast_S_S131072x12 _ (ix2 e h) ix0 (fun a => a.elim0)]
  show Ideal.sqrt (Ideal.ofBits .f32 0x42800000#32) = _
  rw [score_ofBits_64, score_sqrt_64]

/-- The kernel's scores of gathered queries, gathered keys and the relative-key rows given a unit head axis are the
    reference's scores. -/
theorem score_eq (qg kg : FVec Ideal S131072x12x64 .f32) (relg : FVec Ideal S131072x64 .f32) :
    Cert.KernelIdeal.Spec.score qg kg (shapeCast Cert.KernelIdeal.S131072x1x64 relg Cert.KernelIdeal.Gen.shapeCasts_S131072x64_S131072x1x64)
      = Cert.ReferenceIdeal.RFinal.rSC qg kg relg := by
  funext j
  obtain ⟨e, h, rfl⟩ : ∃ (e : Fin 131072) (h : Fin 12), j = ix2 e h := ⟨j 0, j 1, eq_ix2 j⟩
  unfold Cert.ReferenceIdeal.RFinal.rSC
  show Ideal.exp ((∑ d : Fin 64, qg (ix3 e h d) * (kg (ix3 e h d)
        + shapeCast Cert.KernelIdeal.S131072x1x64 relg Cert.KernelIdeal.Gen.shapeCasts_S131072x64_S131072x1x64 (ix3 e (0 : Fin 1) d)))
        * Ideal.ofBits .f32 0x3E000000#32)
      = Ideal.exp (Ideal.div
          (Host.reduceAdd (F := Ideal) (mulf qg (addf kg
            (broadcastInDim S131072x12x64 ![0, 1, 2] bcast_S131072x1x64_S131072x12x64_0_1_2 (broadcastInDim S131072x1x64 ![0, 2] bcast_S131072x64_S131072x1x64_0_2 relg))))
            (constant (F := Ideal) S_ .f32 0x00000000#32) reducesTo_S131072x12x64_S131072x12_d2 h_S_ (ix2 e h))
          (broadcastInDim S131072x12 ![] bcast_S_S131072x12 (Host.sqrt (constant (F := Ideal) S_ .f32 0x42800000#32)) (ix2 e h)))
  rw [score_sum_apply, score_root_apply, Ideal.div_coe (by norm_num : (8 : ℝ) ≠ 0), score_ofBits_eighth]
  refine congrArg (fun x => Ideal.exp (x * ((1 / 8 : ℝ) : EReal))) (Finset.sum_congr rfl fun d _ => ?_)
  rw [mulf_apply, addf_apply, score_relRep_apply, score_relCast_apply]

end Cert.Bridge

end
-- ==== Proof.BridgeOut.lean ====
/-
  The kernel's weighted values are the reference's, over the extended reals.
  Kernel: (v[e, h, d] + rel[e, 0, d]) * (s[e, h] / den[e, h]). Reference: the product of (v + rel repeated over the heads)
  and (s / den given a unit feature axis and repeated over the features), read at (e, h, d). Both quotients are the one
  division of the extended reals.
-/
import proofs.«108313_j29489245454921_1_alg».proof.Proof.KFinal
import proofs.«108313_j29489245454921_1_alg».proof.Proof.RFinal
import proofs.«108313_j29489245454921_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.ReferenceIdeal Cert.ReferenceIdeal.Gen

/-- The rows given a unit head axis by a reshape, read at (e, 0, d), are the rows at (e, d): both places have the one
    row-major position e * 64 + d. -/
theorem relCast_apply (relg : FVec Ideal S131072x64 .f32) (e : Fin 131072) (d : Fin 64) :
    shapeCast Cert.KernelIdeal.S131072x1x64 relg Cert.KernelIdeal.Gen.shapeCasts_S131072x64_S131072x1x64 (ix3 e (0 : Fin 1) d)
      = relg (ix2 e d) :=
  shapeCast_apply relg Cert.KernelIdeal.Gen.shapeCasts_S131072x64_S131072x1x64 (ix3 e (0 : Fin 1) d) (ix2 e d)
    (by rewrite [Shape.rowMajor_val_two, Shape.rowMajor_val_three]
        show e.val * 64 + d.val = (e.val * 1 + 0) * 64 + d.val
        omega)

/-- The rows given a unit head axis and then repeated over the heads, read at (e, h, d), are the rows at (e, d). -/
theorem relRep_apply (relg : FVec Ideal S131072x64 .f32) (e : Fin 131072) (h : Fin 12) (d : Fin 64) :
    broadcastInDim S131072x12x64 ![0, 1, 2] bcast_S131072x1x64_S131072x12x64_0_1_2
        (broadcastInDim S131072x1x64 ![0, 2] bcast_S131072x64_S131072x1x64_0_2 relg) (ix3 e h d)
      = relg (ix2 e d) := by
  rw [broadcastInDim_apply _ bcast_S131072x1x64_S131072x12x64_0_1_2 _ (ix3 e h d) (ix3 e (0 : Fin 1) d) (fun a => match a with
    | ⟨0, _⟩ => by show e.val = if (131072 : Nat) = 1 then 0 else e.val; rw [if_neg (by decide)]
    | ⟨1, _⟩ => by show 0 = if (1 : Nat) = 1 then 0 else h.val; rw [if_pos rfl]
    | ⟨2, _⟩ => by show d.val = if (64 : Nat) = 1 then 0 else d.val; rw [if_neg (by decide)])]
  exact broadcastInDim_apply _ bcast_S131072x64_S131072x1x64_0_2 relg (ix3 e (0 : Fin 1) d) (ix2 e d) (fun a => match a with
    | ⟨0, _⟩ => by show e.val = if (131072 : Nat) = 1 then 0 else e.val; rw [if_neg (by decide)]
    | ⟨1, _⟩ => by show d.val = if (64 : Nat) = 1 then 0 else d.val; rw [if_neg (by decide)])

/-- An array over (edge, head) given a unit feature axis and then repeated over the features, read at (e, h, d), is the
    array at (e, h). -/
theorem headRep_apply (w : FVec Ideal S131072x12 .f32) (e : Fin 131072) (h : Fin 12) (d : Fin 64) :
    broadcastInDim S131072x12x64 ![0, 1, 2] bcast_S131072x12x1_S131072x12x64_0_1_2
        (broadcastInDim S131072x12x1 ![0, 1] bcast_S131072x12_S131072x12x1_0_1 w) (ix3 e h d)
      = w (ix2 e h) := by
  rw [broadcastInDim_apply _ bcast_S131072x12x1_S131072x12x64_0_1_2 _ (ix3 e h d) (ix3 e h (0 : Fin 1)) (fun a => match a with
    | ⟨0, _⟩ => by show e.val = if (131072 : Nat) = 1 then 0 else e.val; rw [if_neg (by decide)]
    | ⟨1, _⟩ => by show h.val = if (12 : Nat) = 1 then 0 else h.val; rw [if_neg (by decide)]
    | ⟨2, _⟩ => by show 0 = if (1 : Nat) = 1 then 0 else d.val; rw [if_pos rfl])]
  exact broadcastInDim_apply _ bcast_S131072x12_S131072x12x1_0_1 w (ix3 e h (0 : Fin 1)) (ix2 e h) (fun a => match a with
    | ⟨0, _⟩ => by show e.val = if (131072 : Nat) = 1 then 0 else e.val; rw [if_neg (by decide)]
    | ⟨1, _⟩ => by show h.val = if (12 : Nat) = 1 then 0 else h.val; rw [if_neg (by decide)])

/-- The kernel's weighted values are the reference's. -/
theorem weighted_eq (vg : FVec Ideal S131072x12x64 .f32) (relg : FVec Ideal S131072x64 .f32) (s den : FVec Ideal S131072x12 .f32) :
    Cert.KernelIdeal.Spec.weighted vg (shapeCast Cert.KernelIdeal.S131072x1x64 relg Cert.KernelIdeal.Gen.shapeCasts_S131072x64_S131072x1x64) s den
      = Cert.ReferenceIdeal.RFinal.rOut vg relg s den := by
  funext i
  obtain ⟨e, h, d, rfl⟩ : ∃ (e : Fin 131072) (h : Fin 12) (d : Fin 64), i = ix3 e h d := ⟨i 0, i 1, i 2, eq_ix3 i⟩
  -- the kernel's side at (e, h, d), with the reshaped rows read at (e, 0, d)
  show (vg (ix3 e h d) + shapeCast Cert.KernelIdeal.S131072x1x64 relg Cert.KernelIdeal.Gen.shapeCasts_S131072x64_S131072x1x64 (ix3 e (0 : Fin 1) d))
        * Ideal.div (s (ix2 e h)) (den (ix2 e h))
      = Cert.ReferenceIdeal.RFinal.rOut vg relg s den (ix3 e h d)
  rw [relCast_apply]
  -- the reference's side at (e, h, d): a product of a sum and a repeated quotient, each read at the index
  unfold Cert.ReferenceIdeal.RFinal.rOut
  rw [mulf_apply, addf_apply, relRep_apply, headRep_apply]
  -- the reference's quotient at (e, h) is the one division of the extended reals
  rfl

end Cert.Bridge

end
-- ==== Proof.Bridge.lean ====
/-
  The kernel program and the reference compute one function of the argument arrays over the extended reals: the projections
  agree third by third, the scores agree, the weighted values agree, and everything else the two programs do is the same
  operations (gathers by edge, the scatter-add by target node) applied to equal values.
-/
import proofs.«108313_j29489245454921_1_alg».proof.Proof.BridgeProj
import proofs.«108313_j29489245454921_1_alg».proof.Proof.BridgeScore
import proofs.«108313_j29489245454921_1_alg».proof.Proof.BridgeOut

set_option maxRecDepth 16384

noncomputable section

namespace Cert.Bridge

open Idealize.ShloMosaic Idealize.ShloMosaic.ValueIdx
open Cert.ReferenceIdeal Cert.ReferenceIdeal.Gen

variable (a0 : FVec Ideal S4x512x768 .f32)
  (a1 : FVec Ideal S768x768 .f32) (a2 : FVec Ideal S768 .f32)
  (a3 : FVec Ideal S768x768 .f32) (a4 : FVec Ideal S768 .f32)
  (a5 : FVec Ideal S768x768 .f32) (a6 : FVec Ideal S768 .f32)
  (a7 a8 : FVec Ideal S16x64 .f32) (a9 a10 a12 : IVec S131072 32)

/-- The two programs' scores agree. -/
theorem kSC_eq : Cert.KernelIdeal.KFinal.kSC a0 a1 a2 a3 a4 a5 a6 a7 a9 a10 a12 = Cert.ReferenceIdeal.RFinal.rScores a0 a1 a2 a3 a4 a7 a9 a10 a12 := by
  unfold Cert.KernelIdeal.KFinal.kSC Cert.KernelIdeal.KFinal.kQg Cert.KernelIdeal.KFinal.kKg Cert.KernelIdeal.KFinal.kRelK
    Cert.ReferenceIdeal.RFinal.rScores
  rw [kQ_eq, kK_eq, score_eq]
  rfl

/-- The kernel program's result and the reference's are one function of the argument arrays. -/
theorem kOut_eq : Cert.KernelIdeal.KFinal.kOut a0 a1 a2 a3 a4 a5 a6 a7 a8 a9 a10 a12 = Cert.ReferenceIdeal.RFinal.rFinal a0 a1 a2 a3 a4 a5 a6 a7 a8 a9 a10 a12 := by
  unfold Cert.KernelIdeal.KFinal.kOut Cert.KernelIdeal.KFinal.kDen Cert.KernelIdeal.KFinal.kVg Cert.KernelIdeal.KFinal.kRelV
    Cert.ReferenceIdeal.RFinal.rFinal
  rw [kV_eq, kSC_eq, weighted_eq]
  rfl

end Cert.Bridge

end
-- ==== Proof.lean ====
/-
  The certificate of the edge-attention program against its reference.
  The program: a fused dense projection of the hidden states into queries, keys and values (one kernel), rows gathered by
  edge, the exponential attention scores per edge and head (a second kernel), their sums by target node (a scatter-add)
  gathered back by edge, and the relative-value-shifted values weighted by score over sum (a third kernel). The reference
  computes the same with three separate projections and plain array operations.
  Frames: each program runs to the end from any admitted memory, nothing faulting, and no argument array is written
  (the kernel program's at any float instance, from the fold of the buffers' contents through its six items; the
  reference's from its run). The idealized programs agree over the extended reals: the kernel program's result array is the
  function `KFinal.kOut` of the argument arrays, the reference's is `RFinal.rFinal`, and the two are one function
  (the fused projection's column thirds are the three projections; multiplying by 1/8 is dividing by the square root of 64;
  a unit axis read at 0 is a row repeated). No finiteness of the inputs is used.
-/
import proofs.«108313_j29489245454921_1_alg».proof.Defs
import proofs.«108313_j29489245454921_1_alg».proof.Proof.Gen.Kernel
import proofs.«108313_j29489245454921_1_alg».proof.Proof.Gen.KernelIdeal
import proofs.«108313_j29489245454921_1_alg».proof.Proof.Gen.ReferenceIdeal
import proofs.«108313_j29489245454921_1_alg».proof.Proof.Gen.Pre_finite_inputs
import proofs.«108313_j29489245454921_1_alg».proof.Proof.Gen.ReferenceIdeal.Run
import proofs.«108313_j29489245454921_1_alg».proof.Proof.K.Run
import proofs.«108313_j29489245454921_1_alg».proof.Proof.KI.Run
import proofs.«108313_j29489245454921_1_alg».proof.Proof.KI.HostRead
import proofs.«108313_j29489245454921_1_alg».proof.Proof.Bridge
import Idealize.ShloMosaic.Adequacy
import Idealize.ShloMosaic.Init

set_option maxRecDepth 16384

noncomputable section

namespace Cert.Proof

open Idealize.ShloMosaic Idealize.SL.Sem

/-- The word-level program's frame. -/
theorem frame_k : Cert.frame_Kernel := fun m ρ _ => Cert.Kernel.Fr.frame m ρ

/-- The idealized program's frame. -/
theorem frame_ki : Cert.frame_KernelIdeal := fun m ρ _ => Cert.KernelIdeal.Fr.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Fr in
/-- Over the extended reals both programs end with the result array at one function of the argument arrays. -/
theorem algebraic : Cert.algebraic_KernelIdeal_ReferenceIdeal := by
  intro m ρ m' ρ' _ hagree
  refine ⟨fun c => Cert.KernelIdeal.KFinal.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)), ?_, ?_⟩
  · exact (θ_run Cert.KernelIdeal.defs _ _).mono (fun r h c =>
      ⟨(h c _ (mem_uc main_v62 (by decide))).trans (kernel_value m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)
      (Cert.KernelIdeal.Fr.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RFinal.res_eq, e0, e1, e2, e3, e4, e5, e6, e7, e8, e9, e10, e12]
    exact (Cert.Bridge.kOut_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
